-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x128 : Shape := ⟨3, ![50000, 1, 128]⟩
abbrev S1600000 : Shape := ⟨1, ![1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S50000x1x128 : S_.BroadcastsInDim S50000x1x128 (![] : Fin 0 → Fin S50000x1x128.rank)
  reducesTo_S50000x1x128_S_d0_1_2 : S50000x1x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 4294917296#32
  let main_v44 : IVec S1600000 32 := broadcastInDim S1600000 ![] bcast_S_S1600000 main_c_16
  let main_v45 : IVec S1600000 1 := cmpi .sge main_arg1 main_v44
  let main_c_17 : IVec S_ 32 := constantI S_ 32 50000#32
  let main_v46 : IVec S1600000 32 := broadcastInDim S1600000 ![] bcast_S_S1600000 main_c_17
  let main_v47 : IVec S1600000 1 := cmpi .slt main_arg1 main_v46
  let main_v48 : IVec S1600000 1 := andi main_v45 main_v47
  let main_c_18 : IVec S_ 1 := constantI S_ 1 1#1
  let main_v49 : IVec S_ 1 := (fun x v => Host.reduce IntOp.andi x v reducesTo_S1600000_S_d0 h_S_) main_v48 main_c_18
  let main_v50 : IVec S_ 1 := andi main_v43 main_v49
  main_v50

def fn_part1 {F : FTy → Type} [FloatOps F] (main_arg1 : IVec S1600000 32) (main_arg6 : FVec F S128x128 .f32) (main_arg7 : FVec F S128 .f32) (main_arg8 : FVec F S128x128 .f32) (main_arg9 : FVec F S10x128 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_v33

def fn {F : FTy → Type} [FloatOps F] (main_arg0 : FVec F S50000x1x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S10x128 .f32) (main_arg10 : FVec F S10 .f32) : IVec S_ 1 :=
  let main_v0 : FVec F S50000x1x128 .f32 := Host.absf main_arg0
  let main_cst : FVec F S_ .f32 := constant S_ .f32 0x7F800000#32
  let main_v1 : FVec F S50000x1x128 .f32 := broadcastInDim S50000x1x128 ![] bcast_S_S50000x1x128 main_cst
  let main_v2 : IVec S50000x1x128 1 := cmpf .olt main_v0 main_v1
  let main_c : IVec S_ 1 := constantI S_ 1 1#1
  let main_v3 : IVec S_ 1 := (fun x v => Host.reduce IntOp.andi x v reducesTo_S50000x1x128_S_d0_1_2 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S50000x1x128 : Shape := ⟨3, ![50000, 1, 128]⟩
abbrev S1600000 : Shape := ⟨1, ![1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S50000x128 : Shape := ⟨2, ![50000, 128]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S128x10 : Shape := ⟨2, ![128, 10]⟩
abbrev S1 : Shape := ⟨1, ![1]⟩
abbrev S1x1 : Shape := ⟨2, ![1, 1]⟩
abbrev S1600000x128 : Shape := ⟨2, ![1600000, 128]⟩
abbrev S5000x128 : Shape := ⟨2, ![5000, 128]⟩
abbrev S1x128 : Shape := ⟨2, ![1, 128]⟩
abbrev S50000x10 : Shape := ⟨2, ![50000, 10]⟩
abbrev S5000x10 : Shape := ⟨2, ![5000, 10]⟩
abbrev S1x10 : Shape := ⟨2, ![1, 10]⟩

abbrev nBuf : Space → Nat
  | .hbm => 90
  | .vmem => 20
  | .smem => 0
  | _ => 0

abbrev bufTy : (tb : Table) → Fin (tcTables nBuf tb) → BufTy
  | .hbm, ⟨0, _⟩ => ⟨S50000x1x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S10x128, .f32⟩
  | .hbm, ⟨10, _⟩ => ⟨S10, .f32⟩
  | .hbm, ⟨11, _⟩ => ⟨S50000x128, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x10, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1, .i32⟩
  | .hbm, ⟨39, _⟩ => ⟨S_, .i32⟩
  | .hbm, ⟨40, _⟩ => ⟨S1600000x1, .i32⟩
  | .hbm, ⟨41, _⟩ => ⟨S1600000x1, .i1⟩
  | .hbm, ⟨42, _⟩ => ⟨S1x1, .i32⟩
  | .hbm, ⟨43, _⟩ => ⟨S1600000x1, .i32⟩
  | .hbm, ⟨44, _⟩ => ⟨S1600000x1, .i1⟩
  | .hbm, ⟨45, _⟩ => ⟨S1600000x1, .i1⟩
  | .hbm, ⟨46, _⟩ => ⟨S_, .i1⟩
  | .hbm, ⟨47, _⟩ => ⟨S1600000, .i1⟩
  | .hbm, ⟨48, _⟩ => ⟨S1600000x128, .f32⟩
  | .hbm, ⟨49, _⟩ => ⟨S1600000x128, .i1⟩
  | .hbm, ⟨50, _⟩ => ⟨S_, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1, .i32⟩
  | .hbm, ⟨69, _⟩ => ⟨S_, .i32⟩
  | .hbm, ⟨70, _⟩ => ⟨S1600000x1, .i32⟩
  | .hbm, ⟨71, _⟩ => ⟨S1600000x1, .i1⟩
  | .hbm, ⟨72, _⟩ => ⟨S1x1, .i32⟩
  | .hbm, ⟨73, _⟩ => ⟨S1600000x1, .i32⟩
  | .hbm, ⟨74, _⟩ => ⟨S1600000x1, .i1⟩
  | .hbm, ⟨75, _⟩ => ⟨S1600000x1, .i1⟩
  | .hbm, ⟨76, _⟩ => ⟨S_, .i1⟩
  | .hbm, ⟨77, _⟩ => ⟨S1600000, .i1⟩
  | .hbm, ⟨78, _⟩ => ⟨S1600000x128, .f32⟩
  | .hbm, ⟨79, _⟩ => ⟨S1600000x128, .i1⟩
  | .hbm, ⟨80, _⟩ => ⟨S_, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S50000x128, .f32⟩
  | .hbm, ⟨85, _⟩ => ⟨S1600000x1, .i32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128x10, .f32⟩
  | .local _ .vmem, ⟨17, _⟩ => ⟨S10, .f32⟩
  | .local _ .vmem, ⟨18, _⟩ => ⟨S5000x10, .f32⟩
  | .local _ .vmem, ⟨19, _⟩ => ⟨S5000x10, .f32⟩
  | _, _ => ⟨S50000x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v22 : Ref sig .tc := ⟨.hbm, 82, rfl⟩
abbrev main_cst_4 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x10 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S50000x1x128_S50000x128 : S50000x1x128.ShapeCasts S50000x128
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  transposes_S128x128_S128x128_1_0 : S128x128.Transposes [1, 0] S128x128
  transposes_S10x128_S128x10_1_0 : S10x128.Transposes [1, 0] S128x10
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x10.size a ≤ S128x10.size a
  hwx1_5 : ∀ i : grid1.Coords, EltTy.bits .f32 = 32 ∨ (Rect.block (s := S128x10) S128x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S10.size a ≤ S10.size a
  hwx1_6 : ∀ i : grid1.Coords, EltTy.bits .f32 = 32 ∨ (Rect.block (s := S10) S10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x10.size a ≤ S50000x10.size a
  hwx1_7 : ∀ i : grid1.Coords, EltTy.bits .f32 = 32 ∨ (Rect.block (s := S50000x10) S5000x10.size (cc1_transform_7 i) (hinb1_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S5000x10.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x1x128 : Shape := ⟨3, ![50000, 1, 128]⟩
abbrev S1600000 : Shape := ⟨1, ![1600000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩
abbrev S1600000x1 : Shape := ⟨2, ![1600000, 1]⟩
abbrev S1600000x1x128 : Shape := ⟨3, ![1600000, 1, 128]⟩
abbrev S50000 : Shape := ⟨1, ![50000]⟩
abbrev S50000x1x1 : Shape := ⟨3, ![50000, 1, 1]⟩
abbrev S1x1x128 : Shape := ⟨3, ![1, 1, 128]⟩
abbrev S50000x128 : Shape := ⟨2, ![50000, 128]⟩
abbrev S128x10 : Shape := ⟨2, ![128, 10]⟩
abbrev S50000x10 : Shape := ⟨2, ![50000, 10]⟩
abbrev S1x10 : Shape := ⟨2, ![1, 10]⟩

abbrev nBuf : Space → Nat
  | .hbm => 89
  | .vmem => 0
  | .smem => 0
  | _ => 0

abbrev bufTy : (tb : Table) → Fin (tcTables nBuf tb) → BufTy
  | .hbm, ⟨0, _⟩ => ⟨S50000x1x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S10x128, .f32⟩
  | .hbm, ⟨10, _⟩ => ⟨S10, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x1x128, .f32⟩
  | .hbm, ⟨20, _⟩ => ⟨S_, .f32⟩
  | .hbm, ⟨21, _⟩ => ⟨S50000x1x128, .f32⟩
  | .hbm, ⟨22, _⟩ => ⟨S1600000x1, .i32⟩
  | .hbm, ⟨23, _⟩ => ⟨S50000x1x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S50000, .f32⟩
  | .hbm, ⟨28, _⟩ => ⟨S1600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1x1, .f32⟩
  | .hbm, ⟨34, _⟩ => ⟨S50000x1x128, .f32⟩
  | .hbm, ⟨35, _⟩ => ⟨S50000x1x128, .f32⟩
  | .hbm, ⟨36, _⟩ => ⟨S50000x1x128, .f32⟩
  | .hbm, ⟨37, _⟩ => ⟨S1x1x128, .f32⟩
  | .hbm, ⟨38, _⟩ => ⟨S50000x1x128, .f32⟩
  | .hbm, ⟨39, _⟩ => ⟨S50000x1x128, .f32⟩
  | .hbm, ⟨40, _⟩ => ⟨S50000x1x128, .f32⟩
  | .hbm, ⟨41, _⟩ => ⟨S50000x1x128, .f32⟩
  | .hbm, ⟨42, _⟩ => ⟨S_, .f32⟩
  | .hbm, ⟨43, _⟩ => ⟨S50000x1x128, .f32⟩
  | .hbm, ⟨44, _⟩ => ⟨S50000x1x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x1x128, .f32⟩
  | .hbm, ⟨54, _⟩ => ⟨S_, .f32⟩
  | .hbm, ⟨55, _⟩ => ⟨S50000x1x128, .f32⟩
  | .hbm, ⟨56, _⟩ => ⟨S1600000x1, .i32⟩
  | .hbm, ⟨57, _⟩ => ⟨S50000x1x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S50000, .f32⟩
  | .hbm, ⟨62, _⟩ => ⟨S1600000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1x1, .f32⟩
  | .hbm, ⟨68, _⟩ => ⟨S50000x1x128, .f32⟩
  | .hbm, ⟨69, _⟩ => ⟨S50000x1x128, .f32⟩
  | .hbm, ⟨70, _⟩ => ⟨S50000x1x128, .f32⟩
  | .hbm, ⟨71, _⟩ => ⟨S1x1x128, .f32⟩
  | .hbm, ⟨72, _⟩ => ⟨S50000x1x128, .f32⟩
  | .hbm, ⟨73, _⟩ => ⟨S50000x1x128, .f32⟩
  | .hbm, ⟨74, _⟩ => ⟨S50000x1x128, .f32⟩
  | .hbm, ⟨75, _⟩ => ⟨S50000x1x128, .f32⟩
  | .hbm, ⟨76, _⟩ => ⟨S_, .f32⟩
  | .hbm, ⟨77, _⟩ => ⟨S50000x1x128, .f32⟩
  | .hbm, ⟨78, _⟩ => ⟨S50000x1x128, .f32⟩
  | .hbm, ⟨79, _⟩ => ⟨S_, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S128x10, .f32⟩
  | .hbm, ⟨85, _⟩ => ⟨S50000x10, .f32⟩
  | .hbm, ⟨86, _⟩ => ⟨S1x10, .f32⟩
  | .hbm, ⟨87, _⟩ => ⟨S50000x10, .f32⟩
  | .hbm, ⟨88, _⟩ => ⟨S50000x10, .f32⟩
  | _, _ => ⟨S50000x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x1x128 : S_.BroadcastsInDim S50000x1x128 (![] : Fin 0 → Fin S50000x1x128.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x1x128_0_1_2 : S50000x1x1.BroadcastsInDim S50000x1x128 (![0, 1, 2] : Fin 3 → Fin S50000x1x128.rank)
  bcast_S128_S1x1x128_2 : S128.BroadcastsInDim S1x1x128 (![2] : Fin 1 → Fin S1x1x128.rank)
  bcast_S1x1x128_S50000x1x128_0_1_2 : S1x1x128.BroadcastsInDim S50000x1x128 (![0, 1, 2] : Fin 3 → Fin S50000x1x128.rank)
  reducesTo_S50000x1x128_S50000x128_d1 : S50000x1x128.ReducesTo [1] S50000x128
  h_S_ : 0 < S_.numel
  bcast_S_S50000x128 : S_.BroadcastsInDim S50000x128 (![] : Fin 0 → Fin S50000x128.rank)
  transposes_S10x128_S128x10_1_0 : S10x128.Transposes [1, 0] S128x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x1x128_S1600000x1_S1600000x1x128_12_0_n_n_0_1_11128_wf : GatherDims.WF S50000x1x128 S1600000x1 S1600000x1x128 [1, 2] [0] [] [0] [] 1 ![1, 1, 128]
  scatter_S50000x1x128_S1600000x1_S1600000x1x128_12_0_0_1_wf : ScatterDims.WF S50000x1x128 S1600000x1 S1600000x1x128 [1, 2] [0] [0] 1
  scatter_S50000_S1600000x1_S1600000_n_0_0_1_wf : ScatterDims.WF S50000 S1600000x1 S1600000 [] [0] [0] 1
  dot_S50000x1x128_S128x128_S50000x1x128_2_1_01_0_n_n_wf : DotDims.WF S50000x1x128 S128x128 S50000x1x128 [2] [1] [0, 1] [0] [] []
  dot_S50000x128_S128x10_S50000x10_1_0_0_1_n_n_wf : DotDims.WF S50000x128 S128x10 S50000x10 [1] [0] [0] [1] [] []

variable [Facts₀]

def gather_S50000x1x128_S1600000x1_S1600000x1x128_12_0_n_n_0_1_11128 : GatherDims S50000x1x128 S1600000x1 S1600000x1x128 where
  offsetDims := [1, 2]
  collapsedSliceDims := [0]
  operandBatchingDims := []
  startIndicesBatchingDims := []
  startIndexMap := [0]
  indexVectorDim := 1
  sliceSizes := ![1, 1, 128]
  wf := gather_S50000x1x128_S1600000x1_S1600000x1x128_12_0_n_n_0_1_11128_wf
def scatter_S50000x1x128_S1600000x1_S1600000x1x128_12_0_0_1 : ScatterDims S50000x1x128 S1600000x1 S1600000x1x128 where
  updateWindowDims := [1, 2]
  insertedWindowDims := [0]
  scatterDimsToOperandDims := [0]
  indexVectorDim := 1
  wf := scatter_S50000x1x128_S1600000x1_S1600000x1x128_12_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x1x128_S128x128_S50000x1x128_2_1_01_0_n_n : DotDims S50000x1x128 S128x128 S50000x1x128 where
  lhsContracting := [2]
  rhsContracting := [1]
  lhsNonContracting := [0, 1]
  rhsNonContracting := [0]
  lhsBatch := []
  rhsBatch := []
  wf := dot_S50000x1x128_S128x128_S50000x1x128_2_1_01_0_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.Spec.lean ====
/-
  The mathematics shared by the modules of this certificate.

  The program is a two-layer GraphSAGE network with mean aggregation and a linear classifier. For node features
  `x : [50000, 128]`, edges `(src e, dst e)`, `e < 1600000`:
    hneigh x [n, k] = (Σ_{e : dst e = n} x [src e, k]) / max (#{e : dst e = n}) 1
    layer x [n, o]  = max (Σ_k x [n, k] · Wself [o, k] + b [o] + Σ_k hneigh x [n, k] · Wneigh [o, k]) 0
    out [n, j]      = Σ_k (layer₁ (layer₀ feat)) [n, k] · Wcls [j, k] + bcls [j].
  The kernel program works on `[50000, 128]` arrays (the unit axis of `feat : [50000, 1, 128]` reshaped away), gathers
  the source rows with a take that fills out-of-range rows, multiplies the edge sums by the reciprocal of the clamped
  degree, and computes each layer (the second fused with the classifier) in a pipelined region of ten blocks of 5000
  nodes. The reference keeps the unit axis, gathers with a clamping gather, divides by the clamped degree, contracts
  with `dot_general` and takes the mean over the unit axis at the end.

  Here: each program's host stretches as functions of the arrays (`K.*` the kernel program's, `R.*` the
  reference's), a layer and the classifier at one node and one output feature as plain sums (`sageAt`, `clsAt`),
  and what it means for a `[N, 128]` array and a `[N, 1, 128]` array to hold the same numbers (`Corr`).
-/
import proofs.«406325_j52621939310631_1_alg».proof.Proof.Gen.KernelIdeal
import proofs.«406325_j52621939310631_1_alg».proof.Proof.Gen.ReferenceIdeal
import Idealize.ShloMosaic.Lib.ValueIdx

noncomputable section

open Idealize.ShloMosaic Idealize.ShloMosaic.ValueIdx

namespace Cert.Hand

/-! ## The kernel program's host stretches -/
namespace K

open Cert.KernelIdeal Cert.KernelIdeal.Facts₀

variable {F : FTy → Type} [FloatOps F]

/-- Each edge's source row as a column of indices: a negative word is wrapped once by the row count (the reading of a
    negative index as counted from the end). -/
def idxCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Per edge: the wrapped source row lies in `[0, 49999]`. -/
def inRange (src : IVec S1600000 32) : IVec S1600000 1 :=
  Host.reduce IntOp.andi
    (andi (cmpi .sge (idxCol src) (broadcastInDim S1600000x1 ![] bcast_S_S1600000x1 (constantI S_ 32 0#32)))
      (cmpi .sle (idxCol src)
        (broadcastInDim S1600000x1 ![0, 1] bcast_S1x1_S1600000x1_0_1 (broadcastInDim S1x1 ![1] bcast_S1_S1x1_1 (constantI S1 32 49999#32)))))
    (constantI S_ 1 1#1) reducesTo_S1600000x1_S1600000_d1 h_S_

/-- The take: per edge the source node's row, and the fill value (a NaN word) on an edge whose wrapped source row is
    out of range. -/
def take (x : FVec F S50000x128 .f32) (src : IVec S1600000 32) : FVec F S1600000x128 .f32 :=
  select (broadcastInDim S1600000x128 ![0] bcast_S1600000_S1600000x128_0 (inRange src))
    (Host.gather gather_S50000x128_S1600000x1_S1600000x128_1_0_n_n_0_1_1128 x (idxCol src))
    (broadcastInDim S1600000x128 ![] bcast_S_S1600000x128 (constant S_ .f32 0x7FC00000#32))

/-- The in-degree of every node (a sum of ones over its incoming edges), clamped below by one. -/
def degMax (dst : IVec S1600000 32) : FVec F S50000 .f32 :=
  maximumf
    (Host.scatterAdd scatter_S50000_S1600000x1_S1600000_n_0_0_1 (broadcastInDim S50000 ![] bcast_S_S50000 (constant S_ .f32 0x00000000#32))
      (broadcastInDim S1600000x1 ![0] bcast_S1600000_S1600000x1_0 dst) (broadcastInDim S1600000 ![] bcast_S_S1600000 (constant S_ .f32 0x3F800000#32)))
    (broadcastInDim S50000 ![] bcast_S_S50000 (constant S_ .f32 0x3F800000#32))

/-- The reciprocal of the clamped in-degree, as a column. -/
def invDeg (dst : IVec S1600000 32) : FVec F S50000x1 .f32 :=
  broadcastInDim S50000x1 ![0] bcast_S50000_S50000x1_0
    (Host.divf (broadcastInDim S50000 ![] bcast_S_S50000 (constant S_ .f32 0x3F800000#32)) (degMax dst))

/-- The mean of the in-neighbours' rows: the edge sums times the reciprocal of the clamped degree. -/
def hneigh (x : FVec F S50000x128 .f32) (src dst : IVec S1600000 32) : FVec F S50000x128 .f32 :=
  mulf
    (Host.scatterAdd scatter_S50000x128_S1600000x1_S1600000x128_1_0_0_1 (broadcastInDim S50000x128 ![] bcast_S_S50000x128 (constant S_ .f32 0x00000000#32))
      (broadcastInDim S1600000x1 ![0] bcast_S1600000_S1600000x1_0 dst) (take x src))
    (broadcastInDim S50000x128 ![0, 1] bcast_S50000x1_S50000x128_0_1 (invDeg dst))

end K

/-! ## The reference's operations -/
namespace R

open Cert.ReferenceIdeal Cert.ReferenceIdeal.Facts₀

variable {F : FTy → Type} [FloatOps F]

/-- Each edge's source row as a column of indices, a negative word wrapped once by the row count. -/
def idxCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The in-degree of every node, clamped below by one. -/
def degMax (dst : IVec S1600000 32) : FVec F S50000 .f32 :=
  maximumf
    (Host.scatterAdd scatter_S50000_S1600000x1_S1600000_n_0_0_1 (broadcastInDim S50000 ![] bcast_S_S50000 (constant S_ .f32 0x00000000#32))
      (broadcastInDim S1600000x1 ![0] bcast_S1600000_S1600000x1_0 dst) (broadcastInDim S1600000 ![] bcast_S_S1600000 (constant S_ .f32 0x3F800000#32)))
    (broadcastInDim S50000 ![] bcast_S_S50000 (constant S_ .f32 0x3F800000#32))

/-- The mean of the in-neighbours' rows: the edge sums (rows gathered with a clamping gather) divided by the clamped degree. -/
def hneigh (x : FVec F S50000x1x128 .f32) (src dst : IVec S1600000 32) : FVec F S50000x1x128 .f32 :=
  Host.divf
    (Host.scatterAdd scatter_S50000x1x128_S1600000x1_S1600000x1x128_12_0_0_1 (broadcastInDim S50000x1x128 ![] bcast_S_S50000x1x128 (constant S_ .f32 0x00000000#32))
      (broadcastInDim S1600000x1 ![0] bcast_S1600000_S1600000x1_0 dst)
      (Host.gather gather_S50000x1x128_S1600000x1_S1600000x1x128_12_0_n_n_0_1_11128 x (idxCol src)))
    (broadcastInDim S50000x1x128 ![0, 1, 2] bcast_S50000x1x1_S50000x1x128_0_1_2 (broadcastInDim S50000x1x1 ![0] bcast_S50000_S50000x1x1_0 (degMax dst)))

/-- One layer over a given neighbour-mean array `h`: `max (x · Wselfᵀ + b + h · Wneighᵀ) 0`. -/
def layerOf (x h : FVec F S50000x1x128 .f32) (ws : FVec F S128x128 .f32) (b : FVec F S128 .f32) (wn : FVec F S128x128 .f32) :
    FVec F S50000x1x128 .f32 :=
  maximumf
    (addf
      (addf (Host.dotGeneral dot_S50000x1x128_S128x128_S50000x1x128_2_1_01_0_n_n none x ws)
        (broadcastInDim S50000x1x128 ![0, 1, 2] bcast_S1x1x128_S50000x1x128_0_1_2 (broadcastInDim S1x1x128 ![2] bcast_S128_S1x1x128_2 b)))
      (Host.dotGeneral dot_S50000x1x128_S128x128_S50000x1x128_2_1_01_0_n_n none h wn))
    (broadcastInDim S50000x1x128 ![] bcast_S_S50000x1x128 (constant S_ .f32 0x00000000#32))

/-- One layer: the neighbour mean is that of the layer's own input. -/
def layer (x : FVec F S50000x1x128 .f32) (src dst : IVec S1600000 32) (ws : FVec F S128x128 .f32) (b : FVec F S128 .f32) (wn : FVec F S128x128 .f32) :
    FVec F S50000x1x128 .f32 :=
  layerOf x (hneigh x src dst) ws b wn

/-- The mean over the unit axis, then the classifier. -/
def outOf (y : FVec F S50000x1x128 .f32) (wc : FVec F S10x128 .f32) (bc : FVec F S10 .f32) : FVec F S50000x10 .f32 :=
  addf
    (Host.dotGeneral dot_S50000x128_S128x10_S50000x10_1_0_0_1_n_n none
      (Host.divf
        (Host.reduceAdd y (constant S_ .f32 0x00000000#32) reducesTo_S50000x1x128_S50000x128_d1 h_S_)
        (broadcastInDim S50000x128 ![] bcast_S_S50000x128 (constant S_ .f32 0x3F800000#32)))
      (transpose S128x10 [1, 0] wc transposes_S10x128_S128x10_1_0))
    (broadcastInDim S50000x10 ![0, 1] bcast_S1x10_S50000x10_0_1 (broadcastInDim S1x10 ![1] bcast_S10_S1x10_1 bc))

/-- The reference's result: two layers, the mean over the unit axis, the classifier. -/
def out (feat : FVec F S50000x1x128 .f32) (src dst : IVec S1600000 32) (ws0 : FVec F S128x128 .f32) (b0 : FVec F S128 .f32) (wn0 : FVec F S128x128 .f32)
    (ws1 : FVec F S128x128 .f32) (b1 : FVec F S128 .f32) (wn1 : FVec F S128x128 .f32) (wc : FVec F S10x128 .f32) (bc : FVec F S10 .f32) : FVec F S50000x10 .f32 :=
  outOf (layer (layer feat src dst ws0 b0 wn0) src dst ws1 b1 wn1) wc bc

end R

/-! ## A layer and the classifier as sums, at one node and one output feature -/

/-- An array of rank 1, 2, 3 over the extended reals as a function of its coordinates. -/
abbrev at1 {n0 : Nat} (x : (⟨1, ![n0]⟩ : Shape).Idx → EReal) : Fin n0 → EReal := fun a => x (ix1 a)
abbrev at2 {n0 n1 : Nat} (x : (⟨2, ![n0, n1]⟩ : Shape).Idx → EReal) : Fin n0 → Fin n1 → EReal := fun a b => x (ix2 a b)
abbrev at3 {n0 n1 n2 : Nat} (x : (⟨3, ![n0, n1, n2]⟩ : Shape).Idx → EReal) : Fin n0 → Fin n1 → Fin n2 → EReal := fun a b c => x (ix3 a b c)

/-- One layer at node `n`, output feature `o`: the node's row against column `o` of the self weights, plus its
    neighbours' mean row against column `o` of the neighbour weights, plus the bias, clamped below by zero. The weights
    are indexed `[input feature, output feature]` (as the kernel's windows hold them: the transposes of the arguments). -/
def sageAt (x h : Fin 50000 → Fin 128 → EReal) (ws wn : Fin 128 → Fin 128 → EReal) (b : Fin 128 → EReal) (n : Fin 50000) (o : Fin 128) : EReal :=
  max ((∑ k : Fin 128, x n k * ws k o + ∑ k : Fin 128, h n k * wn k o) + b o) 0

/-- The second layer followed by the classifier at node `n`, class `j`. -/
def clsAt (x h : Fin 50000 → Fin 128 → EReal) (ws wn : Fin 128 → Fin 128 → EReal) (b : Fin 128 → EReal) (wc : Fin 128 → Fin 10 → EReal) (bc : Fin 10 → EReal)
    (n : Fin 50000) (j : Fin 10) : EReal :=
  ∑ k : Fin 128, sageAt x h ws wn b n k * wc k j + bc j

/-- A `[N, 128]` array and a `[N, 1, 128]` array hold the same numbers. -/
def Corr {N : Nat} (x2 : (⟨2, ![N, 128]⟩ : Shape).Idx → EReal) (x3 : (⟨3, ![N, 1, 128]⟩ : Shape).Idx → EReal) : Prop :=
  ∀ (n : Fin N) (k : Fin 128), x2 (ix2 n k) = x3 (ix3 n 0 k)

/-- Every source word names a row, counted from the start or from the end. -/
def SrcInRange (src : IVec Cert.KernelIdeal.S1600000 32) : Prop :=
  ∀ e : Fin 1600000, -50000 ≤ (src (ix1 e)).toInt ∧ (src (ix1 e)).toInt < 50000

end Cert.Hand

end
-- ==== Proof.KHost.lean ====
import proofs.«406325_j52621939310631_1_alg».proof.Proof.Gen.KernelIdeal.Frame
import proofs.«406325_j52621939310631_1_alg».proof.Proof.Spec
import Idealize.ShloMosaic.Lib.StableHlo.Run

noncomputable section

open Idealize.ShloMosaic Idealize.ShloMosaic.TcCoe Idealize.ShloMosaic.ValueIdx Idealize.SL.Sem

namespace Cert.Hand

open Cert.KernelIdeal Cert.KernelIdeal.Gen

variable (m : (ℓ : Loc nD τ sig) → Buf (Elt Ideal) ℓ) (ρ : Dev nD → PrngReg)

/-- The node features with the unit axis dropped: the rows the first region reads. -/
def feat2 (c : Dev nD) : FVec Ideal S50000x128 .f32 :=
  shapeCast S50000x128 (m ((c.tc : Thread nD τ).loc main_arg0)) Facts₀.shapeCasts_S50000x1x128_S50000x128

/-- The first layer's output array: what the first region leaves. -/
def hid (c : Dev nD) : FVec Ideal S50000x128 .f32 := (dat0 (F := Ideal) (V3 m ρ) c).arrAt 5 cfg0.N

/-- A buffer that no operation of a stretch writes holds after the stretch what it held before. -/
macro "pass_ops" l:ident : tactic =>
  `(tactic| (refine StableHlo.after_of_forall_not_mem _ _ (List.forall_iff_forall_mem.mp ?_)
             simp only [$l:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The host stretches over arbitrary entry contents

Each stretch is a fold of its operations over the buffers' contents at its entry; read at one buffer, the fold is the
composed operations over the contents of the buffers the stretch does not write. -/

section Ops
variable {F : FTy → Type} [FloatOps F] (V : Valuation τ sig (Elt F))

/-- The first stretch leaves the features with the unit axis dropped, -/
theorem ops0_v0 : StableHlo.after hostOps0 V (Proc.devRef .tc main_v0)
    = shapeCast S50000x128 (V (Proc.devRef .tc main_arg0)) Facts₀.shapeCasts_S50000x1x128_S50000x128 := by
  after_results
  rfl

/-- the reciprocal of the clamped in-degree, as a column, -/
theorem ops0_v9 : StableHlo.after hostOps0 V (Proc.devRef .tc main_v9)
    = K.invDeg (F := F) (V (Proc.devRef .tc main_arg2)) := by
  after_results
  rfl

/-- and the transposes of the five weight arrays. -/
theorem ops0_v10 : StableHlo.after hostOps0 V (Proc.devRef .tc main_v10)
    = transpose S128x128 [1, 0] (V (Proc.devRef .tc main_arg3)) Facts₀.transposes_S128x128_S128x128_1_0 := by
  after_results
theorem ops0_v11 : StableHlo.after hostOps0 V (Proc.devRef .tc main_v11)
    = transpose S128x128 [1, 0] (V (Proc.devRef .tc main_arg5)) Facts₀.transposes_S128x128_S128x128_1_0 := by
  after_results
theorem ops0_v12 : StableHlo.after hostOps0 V (Proc.devRef .tc main_v12)
    = transpose S128x128 [1, 0] (V (Proc.devRef .tc main_arg6)) Facts₀.transposes_S128x128_S128x128_1_0 := by
  after_results
theorem ops0_v13 : StableHlo.after hostOps0 V (Proc.devRef .tc main_v13)
    = transpose S128x128 [1, 0] (V (Proc.devRef .tc main_arg8)) Facts₀.transposes_S128x128_S128x128_1_0 := by
  after_results
theorem ops0_v14 : StableHlo.after hostOps0 V (Proc.devRef .tc main_v14)
    = transpose S128x10 [1, 0] (V (Proc.devRef .tc main_arg9)) Facts₀.transposes_S10x128_S128x10_1_0 := by
  after_results

/-! ### The first take (of the reshaped features) -/

/-- The take's operations up to the gather and the range test, -/
abbrev takeA0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_arg1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_arg1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_arg1 : StableHlo.TRef sig ⟨S1600000, .i32⟩) (.of main_call0_v4 : StableHlo.TRef sig ⟨S1600000, .i32⟩) select,
    StableHlo.TRef.unary main_call0_call0.v0 (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_),
    StableHlo.TRef.binary (.of main_v0 : StableHlo.TRef sig ⟨S50000x128, .f32⟩) (.of main_call0_v5 : StableHlo.TRef sig ⟨S1600000x1, .i32⟩) (.of main_call0_v13 : StableHlo.TRef sig ⟨S1600000x128, .f32⟩) (fun x i => Host.gather gather_S50000x128_S1600000x1_S1600000x128_1_0_n_n_0_1_1128 x i) ]
/-- and the selection of the gathered rows or the fill value. -/
abbrev takeB0 : List (HloOp τ sig (Elt F)) :=
  [ StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v15 : StableHlo.TRef sig ⟨S1600000x128, .f32⟩) select ]
theorem hostOps0_1_split : (hostOps0_1 : List (HloOp τ sig (Elt F))) = takeA0 ++ takeB0 := rfl

/-- The range test of the wrapped source rows. -/
theorem takeA0_v12 : StableHlo.after takeA0 V (Proc.devRef .tc main_call0_v12) = K.inRange (V (Proc.devRef .tc main_arg1)) := by
  after_results_simp
  simp only [StableHlo.TRef.ofBuf, StableHlo.TRef.toBuf, cast_eq]
  rfl

/-- The gathered rows. -/
theorem takeA0_v13 : StableHlo.after takeA0 V (Proc.devRef .tc main_call0_v13)
    = Host.gather gather_S50000x128_S1600000x1_S1600000x128_1_0_n_n_0_1_1128 (V (Proc.devRef .tc main_v0)) (K.idxCol (V (Proc.devRef .tc main_arg1))) := by
  after_results_simp
  simp only [StableHlo.TRef.ofBuf, StableHlo.TRef.toBuf, cast_eq]
  rfl

/-- The selection, over whatever the range test's and the gather's buffers hold. -/
theorem takeB0_out : StableHlo.after takeB0 V (Proc.devRef .tc main_v15)
    = select (broadcastInDim S1600000x128 ![0] bcast_S1600000_S1600000x128_0 (V (Proc.devRef .tc main_call0_v12)))
        (V (Proc.devRef .tc main_call0_v13))
        (broadcastInDim S1600000x128 ![] bcast_S_S1600000x128 (constant (F := F) S_ .f32 0x7FC00000#32)) := by
  after_results_simp
  simp only [StableHlo.TRef.ofBuf, StableHlo.TRef.toBuf, cast_eq]

/-- The take as a whole: per edge the source node's row, or the fill value out of range. -/
theorem take0_eq : StableHlo.after hostOps0_1 V (Proc.devRef .tc main_v15)
    = K.take (F := F) (V (Proc.devRef .tc main_v0)) (V (Proc.devRef .tc main_arg1)) := by
  rw [hostOps0_1_split, StableHlo.after_append, takeB0_out, takeA0_v12, takeA0_v13]
  rfl

/-! ### The second take (of the first layer's output) -/

/-- The take's operations up to the gather and the range test, -/
abbrev takeA1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_arg1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_arg1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_arg1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0),
    StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_),
    StableHlo.TRef.binary (.of main_v21 : StableHlo.TRef sig ⟨S50000x128, .f32⟩) (.of main_call1_v5 : StableHlo.TRef sig ⟨S1600000x1, .i32⟩) (.of main_call1_v13 : StableHlo.TRef sig ⟨S1600000x128, .f32⟩) (fun x i => Host.gather gather_S50000x128_S1600000x1_S1600000x128_1_0_n_n_0_1_1128 x i) ]
/-- and the selection of the gathered rows or the fill value. -/
abbrev takeB1 : List (HloOp τ sig (Elt F)) :=
  [ StableHlo.TRef.unary (.of main_call1_v12 : StableHlo.TRef sig ⟨S1600000, .i1⟩) (.of main_call1_v14 : StableHlo.TRef sig ⟨S1600000x128, .i1⟩) (broadcastInDim S1600000x128 ![0] bcast_S1600000_S1600000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x128, .f32⟩) (broadcastInDim S1600000x128 ![] bcast_S_S1600000x128),
    StableHlo.TRef.ternary (.of main_call1_v14 : StableHlo.TRef sig ⟨S1600000x128, .i1⟩) (.of main_call1_v13 : StableHlo.TRef sig ⟨S1600000x128, .f32⟩) (.of main_call1_v15 : StableHlo.TRef sig ⟨S1600000x128, .f32⟩) (.of main_v22 : StableHlo.TRef sig ⟨S1600000x128, .f32⟩) select ]
theorem hostOps1_split : (hostOps1 : List (HloOp τ sig (Elt F))) = takeA1 ++ takeB1 := rfl

/-- The range test of the wrapped source rows. -/
theorem takeA1_v12 : StableHlo.after takeA1 V (Proc.devRef .tc main_call1_v12) = K.inRange (V (Proc.devRef .tc main_arg1)) := by
  after_results_simp
  simp only [StableHlo.TRef.ofBuf, StableHlo.TRef.toBuf, cast_eq]
  rfl

/-- The gathered rows. -/
theorem takeA1_v13 : StableHlo.after takeA1 V (Proc.devRef .tc main_call1_v13)
    = Host.gather gather_S50000x128_S1600000x1_S1600000x128_1_0_n_n_0_1_1128 (V (Proc.devRef .tc main_v21)) (K.idxCol (V (Proc.devRef .tc main_arg1))) := by
  after_results_simp
  simp only [StableHlo.TRef.ofBuf, StableHlo.TRef.toBuf, cast_eq]
  rfl

/-- The selection, over whatever the range test's and the gather's buffers hold. -/
theorem takeB1_out : StableHlo.after takeB1 V (Proc.devRef .tc main_v22)
    = select (broadcastInDim S1600000x128 ![0] bcast_S1600000_S1600000x128_0 (V (Proc.devRef .tc main_call1_v12)))
        (V (Proc.devRef .tc main_call1_v13))
        (broadcastInDim S1600000x128 ![] bcast_S_S1600000x128 (constant (F := F) S_ .f32 0x7FC00000#32)) := by
  after_results_simp
  simp only [StableHlo.TRef.ofBuf, StableHlo.TRef.toBuf, cast_eq]

/-- The take as a whole: per edge the source node's row, or the fill value out of range. -/
theorem take1_eq : StableHlo.after hostOps1 V (Proc.devRef .tc main_v22)
    = K.take (F := F) (V (Proc.devRef .tc main_v21)) (V (Proc.devRef .tc main_arg1)) := by
  rw [hostOps1_split, StableHlo.after_append, takeB1_out, takeA1_v12, takeA1_v13]
  rfl

/-- The edge sums of the taken rows times the broadcast reciprocal degree: the first layer's neighbour mean, -/
theorem ops0_2_v20 : StableHlo.after hostOps0_2 V (Proc.devRef .tc main_v20)
    = mulf (Host.scatterAdd scatter_S50000x128_S1600000x1_S1600000x128_1_0_0_1
        (broadcastInDim S50000x128 ![] Facts₀.bcast_S_S50000x128 (constant (F := F) S_ .f32 0x00000000#32))
        (broadcastInDim S1600000x1 ![0] Facts₀.bcast_S1600000_S1600000x1_0 (V (Proc.devRef .tc main_arg2)))
        (V (Proc.devRef .tc main_v15)))
      (broadcastInDim S50000x128 ![0, 1] Facts₀.bcast_S50000x1_S50000x128_0_1 (V (Proc.devRef .tc main_v9))) := by
  after_results

/-- and the second layer's. -/
theorem ops1_1_v27 : StableHlo.after hostOps1_1 V (Proc.devRef .tc main_v27)
    = mulf (Host.scatterAdd scatter_S50000x128_S1600000x1_S1600000x128_1_0_0_1
        (broadcastInDim S50000x128 ![] Facts₀.bcast_S_S50000x128 (constant (F := F) S_ .f32 0x00000000#32))
        (broadcastInDim S1600000x1 ![0] Facts₀.bcast_S1600000_S1600000x1_0 (V (Proc.devRef .tc main_arg2)))
        (V (Proc.devRef .tc main_v22)))
      (broadcastInDim S50000x128 ![0, 1] Facts₀.bcast_S50000x1_S50000x128_0_1 (V (Proc.devRef .tc main_v9))) := by
  after_results

end Ops

/-! ## Reads carried back to the launch memory

A buffer that a stretch does not write holds after the stretch what it held before; a buffer that is none of a
region's arrays holds after the region what it held before. -/

theorem W1_main_arg1 (c : Dev nD) : W1 m ρ c (Proc.devRef .tc main_arg1) = m ((c.tc : Thread nD τ).loc main_arg1) :=
  calc W1 m ρ c (Proc.devRef .tc main_arg1)
    _ = W0 m ρ c (Proc.devRef .tc main_arg1) := by pass_ops hostOps0
    _ = m ((c.tc : Thread nD τ).loc main_arg1) := rfl

theorem W2_main_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := by pass_ops hostOps0_1
    _ = W0 m ρ c (Proc.devRef .tc main_arg2) := by pass_ops hostOps0
    _ = m ((c.tc : Thread nD τ).loc main_arg2) := rfl

theorem W3_main_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by pass_ops hostOps0_2
    _ = W1 m ρ c (Proc.devRef .tc main_arg4) := by pass_ops hostOps0_1
    _ = W0 m ρ c (Proc.devRef .tc main_arg4) := by pass_ops hostOps0
    _ = m ((c.tc : Thread nD τ).loc main_arg4) := rfl

theorem W4_main_arg1 (c : Dev nD) : W4 m ρ c (Proc.devRef .tc main_arg1) = m ((c.tc : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by pass_ops hostOps0_2
    _ = W1 m ρ c (Proc.devRef .tc main_arg1) := by pass_ops hostOps0_1
    _ = W0 m ρ c (Proc.devRef .tc main_arg1) := by pass_ops hostOps0
    _ = m ((c.tc : Thread nD τ).loc main_arg1) := rfl

theorem W5_main_arg2 (c : Dev nD) : W5 m ρ c (Proc.devRef .tc main_arg2) = m ((c.tc : Thread nD τ).loc main_arg2) :=
  calc W5 m ρ c (Proc.devRef .tc main_arg2)
    _ = W4 m ρ c (Proc.devRef .tc main_arg2) := by pass_ops hostOps1
    _ = W3 m ρ c (Proc.devRef .tc main_arg2) := W4_of_ne m ρ c main_arg2 (by decide)
    _ = W2 m ρ c (Proc.devRef .tc main_arg2) := by pass_ops hostOps0_2
    _ = W1 m ρ c (Proc.devRef .tc main_arg2) := by pass_ops hostOps0_1
    _ = W0 m ρ c (Proc.devRef .tc main_arg2) := by pass_ops hostOps0
    _ = m ((c.tc : Thread nD τ).loc main_arg2) := rfl

theorem W6_main_arg7 (c : Dev nD) : W6 m ρ c (Proc.devRef .tc main_arg7) = m ((c.tc : Thread nD τ).loc main_arg7) :=
  calc W6 m ρ c (Proc.devRef .tc main_arg7)
    _ = W5 m ρ c (Proc.devRef .tc main_arg7) := by pass_ops hostOps1_1
    _ = W4 m ρ c (Proc.devRef .tc main_arg7) := by pass_ops hostOps1
    _ = W3 m ρ c (Proc.devRef .tc main_arg7) := W4_of_ne m ρ c main_arg7 (by decide)
    _ = W2 m ρ c (Proc.devRef .tc main_arg7) := by pass_ops hostOps0_2
    _ = W1 m ρ c (Proc.devRef .tc main_arg7) := by pass_ops hostOps0_1
    _ = W0 m ρ c (Proc.devRef .tc main_arg7) := by pass_ops hostOps0
    _ = m ((c.tc : Thread nD τ).loc main_arg7) := rfl

theorem W6_main_arg10 (c : Dev nD) : W6 m ρ c (Proc.devRef .tc main_arg10) = m ((c.tc : Thread nD τ).loc main_arg10) :=
  calc W6 m ρ c (Proc.devRef .tc main_arg10)
    _ = W5 m ρ c (Proc.devRef .tc main_arg10) := by pass_ops hostOps1_1
    _ = W4 m ρ c (Proc.devRef .tc main_arg10) := by pass_ops hostOps1
    _ = W3 m ρ c (Proc.devRef .tc main_arg10) := W4_of_ne m ρ c main_arg10 (by decide)
    _ = W2 m ρ c (Proc.devRef .tc main_arg10) := by pass_ops hostOps0_2
    _ = W1 m ρ c (Proc.devRef .tc main_arg10) := by pass_ops hostOps0_1
    _ = W0 m ρ c (Proc.devRef .tc main_arg10) := by pass_ops hostOps0
    _ = m ((c.tc : Thread nD τ).loc main_arg10) := rfl

theorem W3_main_v0 (c : Dev nD) : W3 m ρ c (Proc.devRef .tc main_v0) = feat2 m c :=
  calc W3 m ρ c (Proc.devRef .tc main_v0)
    _ = W2 m ρ c (Proc.devRef .tc main_v0) := by pass_ops hostOps0_2
    _ = W1 m ρ c (Proc.devRef .tc main_v0) := by pass_ops hostOps0_1
    _ = feat2 m c := ops0_v0 (W0 m ρ c)

theorem W3_main_v10 (c : Dev nD) : W3 m ρ c (Proc.devRef .tc main_v10) = transpose S128x128 [1, 0] (m ((c.tc : Thread nD τ).loc main_arg3)) Facts₀.transposes_S128x128_S128x128_1_0 :=
  calc W3 m ρ c (Proc.devRef .tc main_v10)
    _ = W2 m ρ c (Proc.devRef .tc main_v10) := by pass_ops hostOps0_2
    _ = W1 m ρ c (Proc.devRef .tc main_v10) := by pass_ops hostOps0_1
    _ = transpose S128x128 [1, 0] (m ((c.tc : Thread nD τ).loc main_arg3)) Facts₀.transposes_S128x128_S128x128_1_0 := ops0_v10 (W0 m ρ c)

theorem W3_main_v11 (c : Dev nD) : W3 m ρ c (Proc.devRef .tc main_v11) = transpose S128x128 [1, 0] (m ((c.tc : Thread nD τ).loc main_arg5)) Facts₀.transposes_S128x128_S128x128_1_0 :=
  calc W3 m ρ c (Proc.devRef .tc main_v11)
    _ = W2 m ρ c (Proc.devRef .tc main_v11) := by pass_ops hostOps0_2
    _ = W1 m ρ c (Proc.devRef .tc main_v11) := by pass_ops hostOps0_1
    _ = transpose S128x128 [1, 0] (m ((c.tc : Thread nD τ).loc main_arg5)) Facts₀.transposes_S128x128_S128x128_1_0 := ops0_v11 (W0 m ρ c)

theorem W6_main_v12 (c : Dev nD) : W6 m ρ c (Proc.devRef .tc main_v12) = transpose S128x128 [1, 0] (m ((c.tc : Thread nD τ).loc main_arg6)) Facts₀.transposes_S128x128_S128x128_1_0 :=
  calc W6 m ρ c (Proc.devRef .tc main_v12)
    _ = W5 m ρ c (Proc.devRef .tc main_v12) := by pass_ops hostOps1_1
    _ = W4 m ρ c (Proc.devRef .tc main_v12) := by pass_ops hostOps1
    _ = W3 m ρ c (Proc.devRef .tc main_v12) := W4_of_ne m ρ c main_v12 (by decide)
    _ = W2 m ρ c (Proc.devRef .tc main_v12) := by pass_ops hostOps0_2
    _ = W1 m ρ c (Proc.devRef .tc main_v12) := by pass_ops hostOps0_1
    _ = transpose S128x128 [1, 0] (m ((c.tc : Thread nD τ).loc main_arg6)) Facts₀.transposes_S128x128_S128x128_1_0 := ops0_v12 (W0 m ρ c)

theorem W6_main_v13 (c : Dev nD) : W6 m ρ c (Proc.devRef .tc main_v13) = transpose S128x128 [1, 0] (m ((c.tc : Thread nD τ).loc main_arg8)) Facts₀.transposes_S128x128_S128x128_1_0 :=
  calc W6 m ρ c (Proc.devRef .tc main_v13)
    _ = W5 m ρ c (Proc.devRef .tc main_v13) := by pass_ops hostOps1_1
    _ = W4 m ρ c (Proc.devRef .tc main_v13) := by pass_ops hostOps1
    _ = W3 m ρ c (Proc.devRef .tc main_v13) := W4_of_ne m ρ c main_v13 (by decide)
    _ = W2 m ρ c (Proc.devRef .tc main_v13) := by pass_ops hostOps0_2
    _ = W1 m ρ c (Proc.devRef .tc main_v13) := by pass_ops hostOps0_1
    _ = transpose S128x128 [1, 0] (m ((c.tc : Thread nD τ).loc main_arg8)) Facts₀.transposes_S128x128_S128x128_1_0 := ops0_v13 (W0 m ρ c)

theorem W6_main_v14 (c : Dev nD) : W6 m ρ c (Proc.devRef .tc main_v14) = transpose S128x10 [1, 0] (m ((c.tc : Thread nD τ).loc main_arg9)) Facts₀.transposes_S10x128_S128x10_1_0 :=
  calc W6 m ρ c (Proc.devRef .tc main_v14)
    _ = W5 m ρ c (Proc.devRef .tc main_v14) := by pass_ops hostOps1_1
    _ = W4 m ρ c (Proc.devRef .tc main_v14) := by pass_ops hostOps1
    _ = W3 m ρ c (Proc.devRef .tc main_v14) := W4_of_ne m ρ c main_v14 (by decide)
    _ = W2 m ρ c (Proc.devRef .tc main_v14) := by pass_ops hostOps0_2
    _ = W1 m ρ c (Proc.devRef .tc main_v14) := by pass_ops hostOps0_1
    _ = transpose S128x10 [1, 0] (m ((c.tc : Thread nD τ).loc main_arg9)) Facts₀.transposes_S10x128_S128x10_1_0 := ops0_v14 (W0 m ρ c)

theorem W1_main_v0 (c : Dev nD) : W1 m ρ c (Proc.devRef .tc main_v0) = feat2 m c :=
  calc W1 m ρ c (Proc.devRef .tc main_v0)
    _ = feat2 m c := ops0_v0 (W0 m ρ c)

theorem W2_main_v9 (c : Dev nD) : W2 m ρ c (Proc.devRef .tc main_v9) = K.invDeg (F := Ideal) (m ((c.tc : Thread nD τ).loc main_arg2)) :=
  calc W2 m ρ c (Proc.devRef .tc main_v9)
    _ = W1 m ρ c (Proc.devRef .tc main_v9) := by pass_ops hostOps0_1
    _ = K.invDeg (F := Ideal) (m ((c.tc : Thread nD τ).loc main_arg2)) := ops0_v9 (W0 m ρ c)

theorem W5_main_v9 (c : Dev nD) : W5 m ρ c (Proc.devRef .tc main_v9) = K.invDeg (F := Ideal) (m ((c.tc : Thread nD τ).loc main_arg2)) :=
  calc W5 m ρ c (Proc.devRef .tc main_v9)
    _ = W4 m ρ c (Proc.devRef .tc main_v9) := by pass_ops hostOps1
    _ = W3 m ρ c (Proc.devRef .tc main_v9) := W4_of_ne m ρ c main_v9 (by decide)
    _ = W2 m ρ c (Proc.devRef .tc main_v9) := by pass_ops hostOps0_2
    _ = W1 m ρ c (Proc.devRef .tc main_v9) := by pass_ops hostOps0_1
    _ = K.invDeg (F := Ideal) (m ((c.tc : Thread nD τ).loc main_arg2)) := ops0_v9 (W0 m ρ c)

/-- The first region leaves its output array at the first layer's output. -/
theorem W4_main_v21 (c : Dev nD) : W4 m ρ c (Proc.devRef .tc main_v21) = hid m ρ c := W4_arr m ρ c 5

/-- The first take's result at the first region's entry. -/
theorem W2_main_v15 (c : Dev nD) : W2 m ρ c (Proc.devRef .tc main_v15)
    = K.take (F := Ideal) (feat2 m c) (m ((c.tc : Thread nD τ).loc main_arg1)) := by
  show StableHlo.after hostOps0_1 (W1 m ρ c) (Proc.devRef .tc main_v15) = _
  rw [take0_eq, W1_main_v0, W1_main_arg1]

/-- The second take's result at the second region's entry. -/
theorem W5_main_v22 (c : Dev nD) : W5 m ρ c (Proc.devRef .tc main_v22)
    = K.take (F := Ideal) (hid m ρ c) (m ((c.tc : Thread nD τ).loc main_arg1)) := by
  show StableHlo.after hostOps1 (W4 m ρ c) (Proc.devRef .tc main_v22) = _
  rw [take1_eq, W4_main_v21, W4_main_arg1]

/-! ## What the first region finds in its five input arrays -/

theorem V3_0 (c : Dev nD) : V3 m ρ c (Pipeline.arrRef spec0 0) = feat2 m c := W3_main_v0 m ρ c
theorem V3_1 (c : Dev nD) : V3 m ρ c (Pipeline.arrRef spec0 1)
    = K.hneigh (feat2 m c) (m ((c.tc : Thread nD τ).loc main_arg1)) (m ((c.tc : Thread nD τ).loc main_arg2)) := by
  show StableHlo.after hostOps0_2 (W2 m ρ c) (Proc.devRef .tc main_v20) = _
  rw [ops0_2_v20, W2_main_arg2, W2_main_v15, W2_main_v9]
  rfl
theorem V3_2 (c : Dev nD) : V3 m ρ c (Pipeline.arrRef spec0 2)
    = transpose S128x128 [1, 0] (m ((c.tc : Thread nD τ).loc main_arg3)) Facts₀.transposes_S128x128_S128x128_1_0 := W3_main_v10 m ρ c
theorem V3_3 (c : Dev nD) : V3 m ρ c (Pipeline.arrRef spec0 3) = m ((c.tc : Thread nD τ).loc main_arg4) := W3_main_arg4 m ρ c
theorem V3_4 (c : Dev nD) : V3 m ρ c (Pipeline.arrRef spec0 4)
    = transpose S128x128 [1, 0] (m ((c.tc : Thread nD τ).loc main_arg5)) Facts₀.transposes_S128x128_S128x128_1_0 := W3_main_v11 m ρ c

/-! ## What the second region finds in its seven input arrays -/

theorem V6_0 (c : Dev nD) : V6 m ρ c (Pipeline.arrRef spec1 0) = hid m ρ c :=
  calc W6 m ρ c (Proc.devRef .tc main_v21)
    _ = W5 m ρ c (Proc.devRef .tc main_v21) := by pass_ops hostOps1_1
    _ = W4 m ρ c (Proc.devRef .tc main_v21) := by pass_ops hostOps1
    _ = hid m ρ c := W4_main_v21 m ρ c
theorem V6_1 (c : Dev nD) : V6 m ρ c (Pipeline.arrRef spec1 1)
    = K.hneigh (hid m ρ c) (m ((c.tc : Thread nD τ).loc main_arg1)) (m ((c.tc : Thread nD τ).loc main_arg2)) := by
  show StableHlo.after hostOps1_1 (W5 m ρ c) (Proc.devRef .tc main_v27) = _
  rw [ops1_1_v27, W5_main_arg2, W5_main_v22, W5_main_v9]
  rfl
theorem V6_2 (c : Dev nD) : V6 m ρ c (Pipeline.arrRef spec1 2)
    = transpose S128x128 [1, 0] (m ((c.tc : Thread nD τ).loc main_arg6)) Facts₀.transposes_S128x128_S128x128_1_0 := W6_main_v12 m ρ c
theorem V6_3 (c : Dev nD) : V6 m ρ c (Pipeline.arrRef spec1 3) = m ((c.tc : Thread nD τ).loc main_arg7) := W6_main_arg7 m ρ c
theorem V6_4 (c : Dev nD) : V6 m ρ c (Pipeline.arrRef spec1 4)
    = transpose S128x128 [1, 0] (m ((c.tc : Thread nD τ).loc main_arg8)) Facts₀.transposes_S128x128_S128x128_1_0 := W6_main_v13 m ρ c
theorem V6_5 (c : Dev nD) : V6 m ρ c (Pipeline.arrRef spec1 5)
    = transpose S128x10 [1, 0] (m ((c.tc : Thread nD τ).loc main_arg9)) Facts₀.transposes_S10x128_S128x10_1_0 := W6_main_v14 m ρ c
theorem V6_6 (c : Dev nD) : V6 m ρ c (Pipeline.arrRef spec1 6) = m ((c.tc : Thread nD τ).loc main_arg10) := W6_main_arg10 m ρ c

/-! ## The result buffer at the end -/

theorem W7_out (c : Dev nD) : W7 m ρ c (Proc.devRef .tc main_v28) = (dat1 (F := Ideal) (V6 m ρ) c).arrAt 7 cfg1.N := W7_arr m ρ c 7

end Cert.Hand

end
-- ==== Proof.Region0.lean ====
import proofs.«406325_j52621939310631_1_alg».proof.Proof.Gen.KernelIdeal.Frame
import proofs.«406325_j52621939310631_1_alg».proof.Proof.Spec
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.Hand

open Cert.KernelIdeal Cert.KernelIdeal.Gen

/-! ## The body's product of a row block by a weight matrix, at one row and one column

The contraction runs over the one axis the dimension numbers name: the left operand's columns against the right
operand's rows. Each of the four coordinates of the two operand indices is read off separately. -/

/-- The left operand's row is the result's row. -/
theorem mm_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left operand's column is the contracted coordinate. -/
theorem mm_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem mm_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem mm_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A row block times a weight matrix, accumulated from zero, at row `r` and column `o`: the sum over the 128 input
    features of the row's entry times the matrix's entry. -/
theorem mm_zero_apply {φ₁ φ₂ : FTy} (x : FVec Ideal S5000x128 φ₁) (w : FVec Ideal S128x128 φ₂) (r : Fin 5000) (o : Fin 128) :
    matmul dot_S5000x128_S128x128_S5000x128_1_0_0_1_n_n none x w (constant (F := Ideal) S5000x128 .f32 0x00000000#32) (ix2 r o)
      = ∑ k : Fin 128, x (ix2 r k) * w (ix2 k o) := by
  show FloatOps.matmul dot_S5000x128_S128x128_S5000x128_1_0_0_1_n_n none x w (constant S5000x128 .f32 0x00000000#32) (ix2 r o) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r o)
      ((contrEquiv1 dot_S5000x128_S128x128_S5000x128_1_0_0_1_n_n 128 rfl rfl).symm k) = ix2 r k := funext fun a => Fin.ext (by
    match a with
    | ⟨0, _⟩ => exact mm_lhs_row _ _
    | ⟨1, _⟩ => exact (mm_lhs_col _ _).trans hk)
  have er : dot_S5000x128_S128x128_S5000x128_1_0_0_1_n_n.rhsIdx (ix2 r o)
      ((contrEquiv1 dot_S5000x128_S128x128_S5000x128_1_0_0_1_n_n 128 rfl rfl).symm k) = ix2 k o := funext fun a => Fin.ext (by
    match a with
    | ⟨0, _⟩ => exact (mm_rhs_row _ _).trans hk
    | ⟨1, _⟩ => exact mm_rhs_col _ _)
  rw [el, er]

/-- The bias, a vector of 128 entries viewed as one row and repeated down the 5000 rows, at row `r` and column `o`
    is its entry `o`. -/
theorem bias_apply (b : Vec Ideal S128 .f32) (r : Fin 5000) (o : Fin 128) :
    broadcastTo S5000x128 (shapeCast S1x128 b shapeCasts_S128_S1x128) broadcasts_S1x128_S5000x128 (ix2 r o) = b (ix1 o) := by
  rw [broadcastTo_apply _ _ (ix2 r o) (ix2 (0 : Fin 1) o) (fun a => by
    match a with
    | ⟨0, _⟩ => rfl
    | ⟨1, _⟩ => rfl)]
  exact shapeCast_apply b _ (ix2 (0 : Fin 1) o) (ix1 o) (by
    rw [Shape.rowMajor_val_one, Shape.rowMajor_val_two]
    show o.val = 0 * 128 + o.val
    omega)

/-- THE PAYLOAD AT ONE ROW AND ONE COLUMN: the row of the first block against column `o` of the first weight matrix,
    plus the row of the second block against column `o` of the second, plus the bias's entry `o`, clamped below by zero. -/
theorem pay_apply (x0 x1 : Vec Ideal S5000x128 .f32) (ws wn : Vec Ideal S128x128 .f32) (b : Vec Ideal S128 .f32)
    (r : Fin 5000) (o : Fin 128) :
    k0_pay1 (F := Ideal) x0 x1 ws wn b (ix2 r o)
      = max ((∑ k : Fin 128, x0 (ix2 r k) * ws (ix2 k o) + ∑ k : Fin 128, x1 (ix2 r k) * wn (ix2 k o)) + b (ix1 o)) 0 := by
  unfold k0_pay1
  simp only [shapeCast_self]
  rw [maximumf_apply, addf_apply, addf_apply, mm_zero_apply, mm_zero_apply, bias_apply, broadcast_apply]
  simp only [truncf_apply]
  show max _ (Ideal.ofBits .f32 0x00000000#32) = _
  rw [Ideal.ofBits_zero_f32]

/-! ## The blocks' places in their arrays

Point `t` of the ten handles nodes `5000 t … 5000 t + 4999`: the two row-blocked inputs and the output sit at block row
`t`, block column 0; the weights and the bias are whole arrays, at block 0 on every axis. -/

/-- The index maps, decided over the ten points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node that row `r` of point `t`'s block is. -/
def node (t : Fin cfg0.N) (r : Fin 5000) : Fin 50000 := ⟨t.val * 5000 + r.val, by have : t.val < 10 := t.isLt; omega⟩

/-- Two functions of a rank-2 index agree when they agree at every pair of coordinates. -/
theorem funext_ix2 {α : Type} {n0 n1 : Nat} {f g : (⟨2, ![n0, n1]⟩ : Shape).Idx → α}
    (h : ∀ (a : Fin n0) (b : Fin n1), f (ix2 a b) = g (ix2 a b)) : f = g :=
  funext fun j => by rw [eq_ix2 j]; exact h _ _

section Blocks
variable (V : (c : Dev nD) → (b : Ref sig .tc) → Buf (Elt Ideal) ((c : Thread nD τ).loc b)) (c : Dev nD)

/-- Row `r` of point `t`'s block of the node rows is node `5000 t + r`'s row. -/
theorem iblk_x (t : Fin cfg0.N) (r : Fin 5000) (k : Fin 128) :
    iblk0 V c 0 t (ix2 r k) = V c (Pipeline.arrRef spec0 0) (ix2 (node t r) k) := by
  obtain ⟨e0, e1, -⟩ := idx_facts t
  show V c (Pipeline.arrRef spec0 0) (((cfg0.win 0).blk t).view.emb (ix2 r k)) = _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- Row `r` of point `t`'s block of the neighbour means is node `5000 t + r`'s row. -/
theorem iblk_h (t : Fin cfg0.N) (r : Fin 5000) (k : Fin 128) :
    iblk0 V c 1 t (ix2 r k) = V c (Pipeline.arrRef spec0 1) (ix2 (node t r) k) := by
  obtain ⟨-, -, e0, e1, -⟩ := idx_facts t
  show V c (Pipeline.arrRef spec0 1) (((cfg0.win 1).blk t).view.emb (ix2 r k)) = _
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- The self weights' block at every point is the whole matrix. -/
theorem iblk_ws (t : Fin cfg0.N) (k o : Fin 128) :
    iblk0 V c 2 t (ix2 k o) = V c (Pipeline.arrRef spec0 2) (ix2 k o) := by
  obtain ⟨-, -, -, -, e0, e1, -⟩ := idx_facts t
  show V c (Pipeline.arrRef spec0 2) (((cfg0.win 2).blk t).view.emb (ix2 k o)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * o.val = o.val; omega

/-- The bias's block at every point is the whole vector. -/
theorem iblk_b (t : Fin cfg0.N) (o : Fin 128) :
    iblk0 V c 3 t (ix1 o) = V c (Pipeline.arrRef spec0 3) (ix1 o) := by
  obtain ⟨-, -, -, -, -, -, e0, -⟩ := idx_facts t
  show V c (Pipeline.arrRef spec0 3) (((cfg0.win 3).blk t).view.emb (ix1 o)) = _
  refine congrArg _ (funext fun a => Fin.ext ?_)
  match a with
  | ⟨0, _⟩ => show win0_3.index t (0 : Fin 1) * 128 + 1 * o.val = o.val; omega

/-- The neighbour weights' block at every point is the whole matrix. -/
theorem iblk_wn (t : Fin cfg0.N) (k o : Fin 128) :
    iblk0 V c 4 t (ix2 k o) = V c (Pipeline.arrRef spec0 4) (ix2 k o) := by
  obtain ⟨-, -, -, -, -, -, -, e0, e1, -⟩ := idx_facts t
  show V c (Pipeline.arrRef spec0 4) (((cfg0.win 4).blk t).view.emb (ix2 k o)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * o.val = o.val; omega

/-- Row `r`, column `o` of point `t`'s output block sits at node `5000 t + r`, column `o` of the output array. -/
theorem blk_out (t : Fin cfg0.N) (r : Fin 5000) (o : Fin 128) :
    ((cfg0.win 5).blk t).view.emb (ix2 r o) = ix2 (node t r) o := by
  obtain ⟨-, -, -, -, -, -, -, -, -, e0, e1⟩ := idx_facts t
  refine funext fun a => Fin.ext ?_
  match a with
  | ⟨0, _⟩ => show win0_5.index t (0 : Fin 2) * 5000 + 1 * r.val = t.val * 5000 + r.val; omega
  | ⟨1, _⟩ => show win0_5.index t (1 : Fin 2) * 128 + 1 * o.val = o.val; omega

/-! ## What a point writes back -/

theorem hz2 : (![0, 0] : Fin 2 → Nat) = fun _ => 0 := funext fun a => by fin_cases a <;> rfl
theorem hz1 : (![0] : Fin 1 → Nat) = fun _ => 0 := funext fun a => by fin_cases a; rfl

/-- What the body leaves in the output window's buffer, at one row and one column, from the five blocks it read. -/
theorem out_apply (x0 x1 : Vec Ideal S5000x128 .f32) (ws : Vec Ideal S128x128 .f32) (b : Vec Ideal S128 .f32) (wn : Vec Ideal S128x128 .f32)
    (r : Fin 5000) (o : Fin 128) :
    out0_5 (F := Ideal) x0 x1 ws b wn (ix2 r o)
      = max ((∑ k : Fin 128, x0 (ix2 r k) * ws (ix2 k o) + ∑ k : Fin 128, x1 (ix2 r k) * wn (ix2 k o)) + b (ix1 o)) 0 := by
  unfold out0_5
  rw [View.canon_unit_zero hz2]
  simp only [View.ld_unit_zero (S := S5000x128) hz2, View.ld_unit_zero (S := S128x128) hz2, View.ld_unit_zero (S := S128) hz1]
  exact pay_apply x0 x1 ws wn b r o

/-- The output array the region leaves, as one function of the arrays it finds: the layer at every node and feature. -/
def layer0 : S50000x128.Idx → Elt Ideal .f32 := fun i =>
  sageAt (at2 (V c (Pipeline.arrRef spec0 0))) (at2 (V c (Pipeline.arrRef spec0 1))) (at2 (V c (Pipeline.arrRef spec0 2)))
    (at2 (V c (Pipeline.arrRef spec0 4))) (at1 (V c (Pipeline.arrRef spec0 3))) ⟨(i 0).val, idx2_lt0 i⟩ ⟨(i 1).val, idx2_lt1 i⟩

/-- WHAT POINT `t` WRITES BACK is block `t` of the layer. -/
theorem flushed_eq (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  refine funext_ix2 (n0 := 5000) (n1 := 128) fun r o => ?_
  show out0_5 (iblk0 V c 0 t) (iblk0 V c 1 t) (iblk0 V c 2 t) (iblk0 V c 3 t) (iblk0 V c 4 t) (ix2 r o)
    = layer0 V c (((cfg0.win 5).blk t).view.emb (ix2 r o))
  refine (out_apply (iblk0 V c 0 t) (iblk0 V c 1 t) (iblk0 V c 2 t) (iblk0 V c 3 t) (iblk0 V c 4 t) r o).trans ?_
  rw [blk_out t r o]
  simp only [iblk_x, iblk_h, iblk_ws, iblk_b, iblk_wn]
  rfl

/-! ## The ten blocks fill the array -/

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Node `n`'s row is in the block of point `n / 5000`. -/
theorem cover (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 := ⟨⟨(i 0).val / 5000, by show _ < 10; omega⟩, rfl⟩
  obtain ⟨-, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Blocks

/-- Region 0's output array after the run, entry by entry: the first layer at node `n`, feature `o`, of the arrays the
    region finds (window 0 the node rows, 1 the neighbour means, 2 and 4 the two weight matrices, 3 the bias). -/
theorem region0 (V : (c : Dev nD) → (b : Ref sig .tc) → Buf (Elt Ideal) ((c : Thread nD τ).loc b)) (c : Dev nD) (n : Fin 50000) (o : Fin 128) :
    (dat0 (F := Ideal) V c).arrAt 5 cfg0.N (ix2 n o)
      = sageAt (at2 (V c (Pipeline.arrRef spec0 0))) (at2 (V c (Pipeline.arrRef spec0 1))) (at2 (V c (Pipeline.arrRef spec0 2)))
          (at2 (V c (Pipeline.arrRef spec0 4))) (at1 (V c (Pipeline.arrRef spec0 3))) n o := by
  have h := (dat0 (F := Ideal) V c).arrAt_eq_of_cover 5 (layer0 V c) (fun t _ => flushed_eq V c t) cover
  exact congrFun h (ix2 n o)

end Cert.Hand

end
-- ==== Proof.Region1.lean ====
import proofs.«406325_j52621939310631_1_alg».proof.Proof.Gen.KernelIdeal.Frame
import proofs.«406325_j52621939310631_1_alg».proof.Proof.Spec
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.Hand

open Cert.KernelIdeal Cert.KernelIdeal.Gen

/-! The lemmas of this module live in the namespace `Reg1` (the layer fused with the classifier); the result
    `region1` is stated after it. -/
namespace Reg1

/-! ## The two contractions of the body, read at an index

Both products contract axis 1 of the left operand with axis 0 of the right one: the left operand is read at
`(row, k)`, the right one at `(k, column)`. -/

/-- The layer's products, `[5000,128] × [128,128]`. -/
abbrev dotLayer := dot_S5000x128_S128x128_S5000x128_1_0_0_1_n_n
/-- The classifier's product, `[5000,128] × [128,10]`. -/
abbrev dotCls := dot_S5000x128_S128x10_S5000x10_1_0_0_1_n_n

theorem lhs_dotLayer_0 (i : S5000x128.Idx) (q : dotLayer.contr.Idx) : (dotLayer.lhsIdx i q 0).val = (i 0).val := by
  unfold DotDims.lhsIdx
  rw [dif_neg (show ¬(0 : Fin S5000x128.rank) ∈ dotLayer.lhsBatch by decide), dif_pos (show (0 : Fin S5000x128.rank) ∈ dotLayer.lhsNonContracting by decide)]
  rfl
theorem lhs_dotLayer_1 (i : S5000x128.Idx) (q : dotLayer.contr.Idx) : (dotLayer.lhsIdx i q 1).val = (q ⟨0, by decide⟩).val :=
  dotLayer.lhsIdx_val_of_single rfl i q
theorem rhs_dotLayer_0 (i : S5000x128.Idx) (q : dotLayer.contr.Idx) : (dotLayer.rhsIdx i q 0).val = (q ⟨0, by decide⟩).val :=
  dotLayer.rhsIdx_val_of_single rfl i q
theorem rhs_dotLayer_1 (i : S5000x128.Idx) (q : dotLayer.contr.Idx) : (dotLayer.rhsIdx i q 1).val = (i 1).val := by
  unfold DotDims.rhsIdx
  rw [dif_neg (show ¬(1 : Fin S128x128.rank) ∈ dotLayer.rhsBatch by decide), dif_pos (show (1 : Fin S128x128.rank) ∈ dotLayer.rhsNonContracting by decide)]
  rfl

/-- A layer product into the zero accumulator at row `r`, column `o`: the sum over `k` of the left operand at
    `(r, k)` times the right operand at `(k, o)`. -/
theorem matmulLayer_apply {φ₁ φ₂ : FTy} (a : FVec Ideal S5000x128 φ₁) (w : FVec Ideal S128x128 φ₂) (r : Fin 5000) (o : Fin 128) :
    matmul dotLayer none a w (constant (F := Ideal) S5000x128 .f32 0x00000000#32) (ix2 r o)
      = ∑ k : Fin 128, a (ix2 r k) * w (ix2 k o) := by
  show FloatOps.matmul dotLayer none a w (constant (F := Ideal) S5000x128 .f32 0x00000000#32) (ix2 r o) = _
  rw [Ideal.matmul_constant_zero_apply, ← Equiv.sum_comp (contrEquiv1 dotLayer 128 rfl rfl).symm]
  refine Finset.sum_congr rfl fun k _ => ?_
  have hk := contrEquiv1_symm_val dotLayer 128 rfl rfl k
  have el : dotLayer.lhsIdx (ix2 r o) ((contrEquiv1 dotLayer 128 rfl rfl).symm k) = ix2 r k := funext fun a => Fin.ext (by
    match a with
    | ⟨0, _⟩ => exact lhs_dotLayer_0 _ _
    | ⟨1, _⟩ => exact (lhs_dotLayer_1 _ _).trans hk)
  have er : dotLayer.rhsIdx (ix2 r o) ((contrEquiv1 dotLayer 128 rfl rfl).symm k) = ix2 k o := funext fun a => Fin.ext (by
    match a with
    | ⟨0, _⟩ => exact (rhs_dotLayer_0 _ _).trans hk
    | ⟨1, _⟩ => exact rhs_dotLayer_1 _ _)
  rw [el, er]

theorem lhs_dotCls_0 (i : S5000x10.Idx) (q : dotCls.contr.Idx) : (dotCls.lhsIdx i q 0).val = (i 0).val := by
  unfold DotDims.lhsIdx
  rw [dif_neg (show ¬(0 : Fin S5000x128.rank) ∈ dotCls.lhsBatch by decide), dif_pos (show (0 : Fin S5000x128.rank) ∈ dotCls.lhsNonContracting by decide)]
  rfl
theorem lhs_dotCls_1 (i : S5000x10.Idx) (q : dotCls.contr.Idx) : (dotCls.lhsIdx i q 1).val = (q ⟨0, by decide⟩).val :=
  dotCls.lhsIdx_val_of_single rfl i q
theorem rhs_dotCls_0 (i : S5000x10.Idx) (q : dotCls.contr.Idx) : (dotCls.rhsIdx i q 0).val = (q ⟨0, by decide⟩).val :=
  dotCls.rhsIdx_val_of_single rfl i q
theorem rhs_dotCls_1 (i : S5000x10.Idx) (q : dotCls.contr.Idx) : (dotCls.rhsIdx i q 1).val = (i 1).val := by
  unfold DotDims.rhsIdx
  rw [dif_neg (show ¬(1 : Fin S128x10.rank) ∈ dotCls.rhsBatch by decide), dif_pos (show (1 : Fin S128x10.rank) ∈ dotCls.rhsNonContracting by decide)]
  rfl

/-- The classifier's product into the zero accumulator at row `r`, class `j`. -/
theorem matmulCls_apply {φ₁ φ₂ : FTy} (a : FVec Ideal S5000x128 φ₁) (w : FVec Ideal S128x10 φ₂) (r : Fin 5000) (j : Fin 10) :
    matmul dotCls none a w (constant (F := Ideal) S5000x10 .f32 0x00000000#32) (ix2 r j)
      = ∑ k : Fin 128, a (ix2 r k) * w (ix2 k j) := by
  show FloatOps.matmul dotCls none a w (constant (F := Ideal) S5000x10 .f32 0x00000000#32) (ix2 r j) = _
  rw [Ideal.matmul_constant_zero_apply, ← Equiv.sum_comp (contrEquiv1 dotCls 128 rfl rfl).symm]
  refine Finset.sum_congr rfl fun k _ => ?_
  have hk := contrEquiv1_symm_val dotCls 128 rfl rfl k
  have el : dotCls.lhsIdx (ix2 r j) ((contrEquiv1 dotCls 128 rfl rfl).symm k) = ix2 r k := funext fun a => Fin.ext (by
    match a with
    | ⟨0, _⟩ => exact lhs_dotCls_0 _ _
    | ⟨1, _⟩ => exact (lhs_dotCls_1 _ _).trans hk)
  have er : dotCls.rhsIdx (ix2 r j) ((contrEquiv1 dotCls 128 rfl rfl).symm k) = ix2 k j := funext fun a => Fin.ext (by
    match a with
    | ⟨0, _⟩ => exact (rhs_dotCls_0 _ _).trans hk
    | ⟨1, _⟩ => exact rhs_dotCls_1 _ _)
  rw [el, er]

/-! ## The body's payload at an index -/

/-- The layer's bias `[128]`, viewed `[1,128]` and broadcast over the 5000 rows, reads the bias at the column. -/
theorem biasLayer_apply (b : Vec Ideal S128 .f32) (r : Fin 5000) (o : Fin 128) :
    broadcastTo S5000x128 (shapeCast S1x128 b shapeCasts_S128_S1x128) broadcasts_S1x128_S5000x128 (ix2 r o) = b (ix1 o) := by
  refine (broadcastTo_apply _ broadcasts_S1x128_S5000x128 (ix2 r o) (ix2 (0 : Fin 1) o) (fun a => ?_)).trans ?_
  · match a with
    | ⟨0, _⟩ => rfl
    | ⟨1, _⟩ => show o.val = if (128 : Nat) = 1 then 0 else o.val; rw [if_neg (by decide)]
  · refine shapeCast_apply b shapeCasts_S128_S1x128 (ix2 (0 : Fin 1) o) (ix1 o) ?_
    rw [Shape.rowMajor_val_one, Shape.rowMajor_val_two]
    show o.val = 0 * 128 + o.val
    omega

/-- The classifier's bias `[10]`, viewed `[1,10]` and broadcast over the 5000 rows, reads the bias at the class. -/
theorem biasCls_apply (b : Vec Ideal S10 .f32) (r : Fin 5000) (j : Fin 10) :
    broadcastTo S5000x10 (shapeCast S1x10 b shapeCasts_S10_S1x10) broadcasts_S1x10_S5000x10 (ix2 r j) = b (ix1 j) := by
  refine (broadcastTo_apply _ broadcasts_S1x10_S5000x10 (ix2 r j) (ix2 (0 : Fin 1) j) (fun a => ?_)).trans ?_
  · match a with
    | ⟨0, _⟩ => rfl
    | ⟨1, _⟩ => show j.val = if (10 : Nat) = 1 then 0 else j.val; rw [if_neg (by decide)]
  · refine shapeCast_apply b shapeCasts_S10_S1x10 (ix2 (0 : Fin 1) j) (ix1 j) ?_
    rw [Shape.rowMajor_val_one, Shape.rowMajor_val_two]
    show j.val = 0 * 10 + j.val
    omega

/-- The layer as the body computes it on a block, before the classifier: row `r`, feature `o`. -/
def layerBlk (x h : Vec Ideal S5000x128 .f32) (ws wn : Vec Ideal S128x128 .f32) (b : Vec Ideal S128 .f32) (r : Fin 5000) (o : Fin 128) : EReal :=
  max ((∑ k : Fin 128, x (ix2 r k) * ws (ix2 k o) + ∑ k : Fin 128, h (ix2 r k) * wn (ix2 k o)) + b (ix1 o)) 0

/-- The stored value at row `r`, class `j` of a block: the layer of the block's rows against the classifier's
    weights, plus the classifier's bias. -/
theorem payload_apply (x h : Vec Ideal S5000x128 .f32) (ws wn : Vec Ideal S128x128 .f32) (b : Vec Ideal S128 .f32)
    (wc : Vec Ideal S128x10 .f32) (bc : Vec Ideal S10 .f32) (r : Fin 5000) (j : Fin 10) :
    k1_pay1 (F := Ideal) x h ws wn b wc bc (ix2 r j)
      = ∑ k : Fin 128, layerBlk x h ws wn b r k * wc (ix2 k j) + bc (ix1 j) := by
  unfold k1_pay1
  simp only [shapeCast_self]
  rw [addf_apply, matmulCls_apply, biasCls_apply]
  refine congrArg (· + bc (ix1 j)) (Finset.sum_congr rfl fun k _ => ?_)
  rw [truncf_apply, truncf_apply, maximumf_apply, addf_apply, addf_apply, matmulLayer_apply, matmulLayer_apply, biasLayer_apply]
  simp only [truncf_apply]
  rw [broadcast_apply]
  show max _ (Ideal.ofBits .f32 0x00000000#32) * _ = _
  rw [Ideal.ofBits_zero_f32]
  rfl

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The stored value at row `r` of a block whose rows are rows of the arrays `A0`, `A1` at node `n`, against the same
    weights and biases, is the second layer followed by the classifier at node `n`. -/
theorem payload_eq_clsAt (A0 A1 : Fin 50000 → Fin 128 → EReal) (Ws Wn : Fin 128 → Fin 128 → EReal) (B : Fin 128 → EReal)
    (Wc : Fin 128 → Fin 10 → EReal) (Bc : Fin 10 → EReal)
    (x h : Vec Ideal S5000x128 .f32) (ws wn : Vec Ideal S128x128 .f32) (b : Vec Ideal S128 .f32)
    (wc : Vec Ideal S128x10 .f32) (bc : Vec Ideal S10 .f32) (n : Fin 50000) (r : Fin 5000)
    (hx : ∀ k, x (ix2 r k) = A0 n k) (hh : ∀ k, h (ix2 r k) = A1 n k)
    (hws : ∀ k o, ws (ix2 k o) = Ws k o) (hwn : ∀ k o, wn (ix2 k o) = Wn k o) (hb : ∀ o, b (ix1 o) = B o)
    (hwc : ∀ k j, wc (ix2 k j) = Wc k j) (hbc : ∀ j, bc (ix1 j) = Bc j) (j : Fin 10) :
    k1_pay1 (F := Ideal) x h ws wn b wc bc (ix2 r j) = clsAt A0 A1 Ws Wn B Wc Bc n j := by
  rw [payload_apply]
  unfold clsAt sageAt layerBlk
  simp only [hx, hh, hws, hwn, hb, hwc, hbc]

/-- The printed index maps, decided over the ten points: the two row windows and the output window sit at block
    `(t, 0)`, the weights' and biases' windows at block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b))

/-- Row `r` of the node rows' block at point `t` is row `5000·t + r` of the array. -/
theorem blk0_apply (c : Dev nD) (t : Fin cfg1.N) (r : Fin 5000) (k : Fin 128) (n : Fin 50000) (hn : n.val = t.val * 5000 + r.val) :
    iblk1 V c 0 t (ix2 r k) = V c (Pipeline.arrRef spec1 0) (ix2 n k) := by
  obtain ⟨e0, e1, -⟩ := index_facts t
  show V c (Pipeline.arrRef spec1 0) (((cfg1.win 0).blk t).view.emb (ix2 r k)) = _
  refine congrArg (V c (Pipeline.arrRef spec1 0)) (funext fun a => Fin.ext ?_)
  match a with
  | ⟨0, _⟩ => show win1_0.index t (0 : Fin 2) * 5000 + 1 * r.val = n.val; omega
  | ⟨1, _⟩ => show win1_0.index t (1 : Fin 2) * 128 + 1 * k.val = k.val; omega

/-- Row `r` of the neighbour means' block at point `t` is row `5000·t + r` of the array. -/
theorem blk1_apply (c : Dev nD) (t : Fin cfg1.N) (r : Fin 5000) (k : Fin 128) (n : Fin 50000) (hn : n.val = t.val * 5000 + r.val) :
    iblk1 V c 1 t (ix2 r k) = V c (Pipeline.arrRef spec1 1) (ix2 n k) := by
  obtain ⟨-, -, e0, e1, -⟩ := index_facts t
  show V c (Pipeline.arrRef spec1 1) (((cfg1.win 1).blk t).view.emb (ix2 r k)) = _
  refine congrArg (V c (Pipeline.arrRef spec1 1)) (funext fun a => Fin.ext ?_)
  match a with
  | ⟨0, _⟩ => show win1_1.index t (0 : Fin 2) * 5000 + 1 * r.val = n.val; omega
  | ⟨1, _⟩ => show win1_1.index t (1 : Fin 2) * 128 + 1 * k.val = k.val; omega

/-- The self weights' block at every point is the whole array. -/
theorem blk2_apply (c : Dev nD) (t : Fin cfg1.N) (k o : Fin 128) :
    iblk1 V c 2 t (ix2 k o) = V c (Pipeline.arrRef spec1 2) (ix2 k o) := by
  obtain ⟨-, -, -, -, e0, e1, -⟩ := index_facts t
  show V c (Pipeline.arrRef spec1 2) (((cfg1.win 2).blk t).view.emb (ix2 k o)) = _
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 128 + 1 * o.val = o.val; omega

/-- The layer's bias block at every point is the whole array. -/
theorem blk3_apply (c : Dev nD) (t : Fin cfg1.N) (o : Fin 128) :
    iblk1 V c 3 t (ix1 o) = V c (Pipeline.arrRef spec1 3) (ix1 o) := by
  obtain ⟨-, -, -, -, -, -, e0, -⟩ := index_facts t
  show V c (Pipeline.arrRef spec1 3) (((cfg1.win 3).blk t).view.emb (ix1 o)) = _
  refine congrArg (V c (Pipeline.arrRef spec1 3)) (funext fun a => Fin.ext ?_)
  match a with
  | ⟨0, _⟩ => show win1_3.index t (0 : Fin 1) * 128 + 1 * o.val = o.val; omega

/-- The neighbour weights' block at every point is the whole array. -/
theorem blk4_apply (c : Dev nD) (t : Fin cfg1.N) (k o : Fin 128) :
    iblk1 V c 4 t (ix2 k o) = V c (Pipeline.arrRef spec1 4) (ix2 k o) := by
  obtain ⟨-, -, -, -, -, -, -, e0, e1, -⟩ := index_facts t
  show V c (Pipeline.arrRef spec1 4) (((cfg1.win 4).blk t).view.emb (ix2 k o)) = _
  refine congrArg (V c (Pipeline.arrRef spec1 4)) (funext fun a => Fin.ext ?_)
  match a with
  | ⟨0, _⟩ => show win1_4.index t (0 : Fin 2) * 128 + 1 * k.val = k.val; omega
  | ⟨1, _⟩ => show win1_4.index t (1 : Fin 2) * 128 + 1 * o.val = o.val; omega

/-- The classifier weights' block at every point is the whole array. -/
theorem blk5_apply (c : Dev nD) (t : Fin cfg1.N) (k : Fin 128) (j : Fin 10) :
    iblk1 V c 5 t (ix2 k j) = V c (Pipeline.arrRef spec1 5) (ix2 k j) := by
  obtain ⟨-, -, -, -, -, -, -, -, -, e0, e1, -⟩ := index_facts t
  show V c (Pipeline.arrRef spec1 5) (((cfg1.win 5).blk t).view.emb (ix2 k j)) = _
  refine congrArg (V c (Pipeline.arrRef spec1 5)) (funext fun a => Fin.ext ?_)
  match a with
  | ⟨0, _⟩ => show win1_5.index t (0 : Fin 2) * 128 + 1 * k.val = k.val; omega
  | ⟨1, _⟩ => show win1_5.index t (1 : Fin 2) * 10 + 1 * j.val = j.val; omega

/-- The classifier's bias block at every point is the whole array. -/
theorem blk6_apply (c : Dev nD) (t : Fin cfg1.N) (j : Fin 10) :
    iblk1 V c 6 t (ix1 j) = V c (Pipeline.arrRef spec1 6) (ix1 j) := by
  obtain ⟨-, -, -, -, -, -, -, -, -, -, -, e0, -⟩ := index_facts t
  show V c (Pipeline.arrRef spec1 6) (((cfg1.win 6).blk t).view.emb (ix1 j)) = _
  refine congrArg (V c (Pipeline.arrRef spec1 6)) (funext fun a => Fin.ext ?_)
  match a with
  | ⟨0, _⟩ => show win1_6.index t (0 : Fin 1) * 10 + 1 * j.val = j.val; omega

/-- The whole output array as one function of the arrays the region finds: the second layer followed by the
    classifier, node by node and class by class. -/
def clsArr (c : Dev nD) : S50000x10.Idx → EReal := fun i =>
  clsAt (at2 (V c (Pipeline.arrRef spec1 0))) (at2 (V c (Pipeline.arrRef spec1 1))) (at2 (V c (Pipeline.arrRef spec1 2)))
    (at2 (V c (Pipeline.arrRef spec1 4))) (at1 (V c (Pipeline.arrRef spec1 3))) (at2 (V c (Pipeline.arrRef spec1 5)))
    (at1 (V c (Pipeline.arrRef spec1 6))) (i 0) (i 1)

/-- What point `t` writes back is block `t` of that function. -/
theorem flushed_eq (c : Dev nD) (t : Fin cfg1.N) :
    (dat1 (F := Ideal) V c).flushed 7 t = ((cfg1.win 7).blk t).view.read (Elt Ideal) (clsArr V c) := by
  show (cfg1.win 7).cut (grid1.coords t) ((dat1 V c).after 7 t) = _
  rw [after1_7]
  unfold out1_7
  rw [View.canon_unit_zero zeros2]
  simp only [View.ld_unit_zero (S := S5000x128) zeros2, View.ld_unit_zero (S := S128x128) zeros2, View.ld_unit_zero (S := S128) zeros1,
    View.ld_unit_zero (S := S128x10) zeros2, View.ld_unit_zero (S := S10) zeros1]
  funext y
  have hy0 : (y 0).val < 5000 := (y 0).isLt
  have hy1 : (y 1).val < 10 := (y 1).isLt
  have ht : t.val < 10 := t.isLt
  obtain ⟨-, -, -, -, -, -, -, -, -, -, -, -, e0, e1⟩ := index_facts t
  have hxy : (cfg1.win 7).xinj (grid1.coords t) y = ix2 (⟨(y 0).val, hy0⟩ : Fin 5000) (⟨(y 1).val, hy1⟩ : Fin 10) :=
    funext fun a => Fin.ext (by match a with | ⟨0, _⟩ => rfl | ⟨1, _⟩ => rfl)
  have hn : t.val * 5000 + (y 0).val < 50000 := by omega
  have h0 : (((cfg1.win 7).blk t).view.emb y 0 : Fin 50000) = ⟨t.val * 5000 + (y 0).val, hn⟩ :=
    Fin.ext (by show win1_7.index t (0 : Fin 2) * 5000 + 1 * (y 0).val = t.val * 5000 + (y 0).val; omega)
  have h1 : (((cfg1.win 7).blk t).view.emb y 1 : Fin 10) = ⟨(y 1).val, hy1⟩ :=
    Fin.ext (by show win1_7.index t (1 : Fin 2) * 10 + 1 * (y 1).val = (y 1).val; omega)
  show k1_pay1 (F := Ideal) (iblk1 V c 0 t) (iblk1 V c 1 t) (iblk1 V c 2 t) (iblk1 V c 4 t) (iblk1 V c 3 t) (iblk1 V c 5 t) (iblk1 V c 6 t)
      ((cfg1.win 7).xinj (grid1.coords t) y) = clsArr V c (((cfg1.win 7).blk t).view.emb y)
  rw [hxy]
  unfold clsArr
  rw [h0, h1]
  exact payload_eq_clsAt _ _ _ _ _ _ _ (iblk1 V c 0 t) (iblk1 V c 1 t) (iblk1 V c 2 t) (iblk1 V c 4 t) (iblk1 V c 3 t) (iblk1 V c 5 t) (iblk1 V c 6 t)
    ⟨t.val * 5000 + (y 0).val, hn⟩ ⟨(y 0).val, hy0⟩
    (fun k => blk0_apply V c t _ k _ rfl) (fun k => blk1_apply V c t _ k _ rfl)
    (fun k o => blk2_apply V c t k o) (fun k o => blk4_apply V c t k o) (fun o => blk3_apply V c t o)
    (fun k j => blk5_apply V c t k j) (fun j => blk6_apply V c t j) ⟨(y 1).val, hy1⟩

/-- An index of the output array is in point `t`'s block iff each coordinate is in the block's range on its axis. -/
theorem mem_blk7 (t : Fin cfg1.N) (i : S50000x10.Idx) :
    i ∈ ((cfg1.win 7).blk t).view.set ↔ ∀ a : Fin 2, win1_7.index t a * S5000x10.size a ≤ (i a).val ∧ (i a).val < win1_7.index t a * S5000x10.size a + S5000x10.size a := by
  show i ∈ ((View.whole main_v28).slice (win1_7.rect t)).set ↔ _
  rw [View.set_slice_whole, Rect.mem_set_unit]
  exact Iff.rfl

/-- Every index of the output array is in the block of the point its row divided by 5000 names. -/
theorem cover7 (i : S50000x10.Idx) : ∃ t : Fin cfg1.N, (cfg1.win 7).flush t = true ∧ i ∈ ((cfg1.win 7).blk t).view.set := by
  have hi0 : (i 0).val < 50000 := (i 0).isLt
  have hi1 : (i 1).val < 10 := (i 1).isLt
  have hN : (i 0).val / 5000 < cfg1.N := by show _ < grid1.N; rw [N_1]; omega
  obtain ⟨-, -, -, -, -, -, -, -, -, -, -, -, e0, e1⟩ := index_facts ⟨(i 0).val / 5000, hN⟩
  refine ⟨⟨(i 0).val / 5000, hN⟩, flush1_7 _, ?_⟩
  rw [mem_blk7]
  intro a
  match a with
  | ⟨0, _⟩ =>
    show win1_7.index ⟨(i 0).val / 5000, hN⟩ (0 : Fin 2) * 5000 ≤ (i 0).val ∧ (i 0).val < win1_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hN⟩ (1 : Fin 2) * 10 ≤ (i 1).val ∧ (i 1).val < win1_7.index ⟨(i 0).val / 5000, hN⟩ (1 : Fin 2) * 10 + 10
    rw [e1]; omega

/-- The output array after the ten points is that function. -/
theorem arrAt7_eq (c : Dev nD) : (dat1 (F := Ideal) V c).arrAt 7 cfg1.N = clsArr V c :=
  (dat1 (F := Ideal) V c).arrAt_eq_of_cover 7 (clsArr V c) (fun t _ => flushed_eq V c t) cover7

end Blocks

end Reg1

/-- Region 1's output array after the run, entry by entry: the second layer followed by the classifier at node `n`, class
    `j`, of the arrays the region finds (window 0 the node rows, 1 the neighbour means, 2 and 4 the layer's weight matrices,
    3 its bias, 5 the classifier's weights, 6 its bias). -/
theorem region1 (V : (c : Dev nD) → (b : Ref sig .tc) → Buf (Elt Ideal) ((c : Thread nD τ).loc b)) (c : Dev nD) (n : Fin 50000) (j : Fin 10) :
    (dat1 (F := Ideal) V c).arrAt 7 cfg1.N (ix2 n j)
      = clsAt (at2 (V c (Pipeline.arrRef spec1 0))) (at2 (V c (Pipeline.arrRef spec1 1))) (at2 (V c (Pipeline.arrRef spec1 2)))
          (at2 (V c (Pipeline.arrRef spec1 4))) (at1 (V c (Pipeline.arrRef spec1 3))) (at2 (V c (Pipeline.arrRef spec1 5)))
          (at1 (V c (Pipeline.arrRef spec1 6))) n j := by
  rw [Reg1.arrAt7_eq]
  rfl

end Cert.Hand

end
-- ==== Proof.Take.lean ====
/-
  The take against the clamping gather.

  For a source word `w` with `-50000 ≤ w < 50000` the wrapped word (`w + 50000` when `w < 0`, else `w`) lies in
  `[0, 49999]`, so the range mask is 1 at every edge and the take's select returns its first branch, the gathered row. Both
  gathers read the operand at the row `min (idx (e, 0)) 49999` (the start index read signed and clamped) and at column `k`
  (the reference's also at the unit coordinate 0), from the same column of indices; the two operands hold the same numbers.
-/
import proofs.«406325_j52621939310631_1_alg».proof.Proof.Spec
import Idealize.ShloMosaic.Lib.ReduceAll
import Idealize.ShloMosaic.Lib.StableHlo.Predicate

noncomputable section

open Idealize.ShloMosaic Idealize.ShloMosaic.TcCoe Idealize.ShloMosaic.ValueIdx Idealize.SL.Sem

namespace Cert.Hand

namespace Take

/-- A source word wrapped once by the row count when it is negative. -/
def wrapW (w : BitVec 32) : BitVec 32 := Scalar.select (IntOp.cmpi .slt w 0#32) (IntOp.addi w 50000#32) w

/-- A signed "less than" on words is 1 exactly when the integers compare so. -/
theorem cmpi_slt_iff (a b : BitVec 32) : IntOp.cmpi .slt a b = 1#1 ↔ a.toInt < b.toInt := by
  show BitVec.ofBool (a.slt b) = 1#1 ↔ _
  rw [StableHlo.Predicate.ofBool_eq_one_iff]; simp only [BitVec.slt, decide_eq_true_eq]
/-- A signed "greater or equal" on words is 1 exactly when the integers compare so. -/
theorem cmpi_sge_iff (a b : BitVec 32) : IntOp.cmpi .sge a b = 1#1 ↔ b.toInt ≤ a.toInt := by
  show BitVec.ofBool (b.sle a) = 1#1 ↔ _
  rw [StableHlo.Predicate.ofBool_eq_one_iff]; simp only [BitVec.sle, decide_eq_true_eq]
/-- A signed "less or equal" on words is 1 exactly when the integers compare so. -/
theorem cmpi_sle_iff (a b : BitVec 32) : IntOp.cmpi .sle a b = 1#1 ↔ a.toInt ≤ b.toInt := by
  show BitVec.ofBool (a.sle b) = 1#1 ↔ _
  rw [StableHlo.Predicate.ofBool_eq_one_iff]; simp only [BitVec.sle, decide_eq_true_eq]

/-- A word in `[-50000, 50000)` wraps into `[0, 49999]`. -/
theorem wrapW_range (w : BitVec 32) (h0 : -50000 ≤ w.toInt) (h1 : w.toInt < 50000) :
    0 ≤ (wrapW w).toInt ∧ (wrapW w).toInt ≤ 49999 := by
  have hz : (0#32 : BitVec 32).toInt = 0 := by decide
  have h5 : (50000#32 : BitVec 32).toInt = 50000 := by decide
  unfold wrapW Scalar.select
  split
  · next hc =>
    have hn : w.toInt < 0 := by have := (cmpi_slt_iff w 0#32).1 hc; rwa [hz] at this
    show 0 ≤ (w + 50000#32).toInt ∧ (w + 50000#32).toInt ≤ 49999
    rw [BitVec.toInt_add, h5, Int.bmod_def]
    split <;> omega
  · next hc =>
    have hn : ¬ w.toInt < 0 := fun h => hc ((cmpi_slt_iff w 0#32).2 (by rw [hz]; exact h))
    omega

/-- A vector laid along the first axis of a rectangle reads, at `(p, q)`, the vector at `p`. -/
theorem bcast0_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- The two programs build the column of wrapped indices by the same operations. -/
theorem idxCol_eq (src : IVec Cert.KernelIdeal.S1600000 32) : K.idxCol src = R.idxCol src := rfl

/-- The column of wrapped indices read at an edge. -/
theorem idxCol_apply (src : IVec Cert.KernelIdeal.S1600000 32) (e : Fin 1600000) (q : Fin 1) :
    K.idxCol src (ix2 e q) = wrapW (src (ix1 e)) := by
  unfold K.idxCol
  rw [bcast0_apply]
  rfl

/-- A left fold by `and` from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hf => by
    rw [List.foldl_cons]
    refine foldl_andi_ones f l _ ?_ (fun n hn => hf n (List.mem_cons_of_mem _ hn))
    rw [hi, hf a (List.mem_cons_self ..)]; decide

/-- Where every source word names a row, the range mask is set at every edge. -/
theorem inRange_apply (src : IVec Cert.KernelIdeal.S1600000 32) (hs : SrcInRange src) (e : Fin 1600000) :
    K.inRange src (ix1 e) = 1#1 := by
  unfold K.inRange
  rw [Host.reduce_eq_foldl]
  refine foldl_andi_ones _ _ _ rfl ?_
  intro i _
  obtain ⟨a, q, rfl⟩ : ∃ a q, i = ix2 a q := ⟨_, _, eq_ix2 i⟩
  obtain ⟨h0, h1⟩ := hs a
  obtain ⟨r0, r1⟩ := wrapW_range _ h0 h1
  show IntOp.andi (IntOp.cmpi .sge (K.idxCol src (ix2 a q)) 0#32) (IntOp.cmpi .sle (K.idxCol src (ix2 a q)) 49999#32) = 1#1
  rw [idxCol_apply, IntOp.andi_eq_one]
  refine ⟨(cmpi_sge_iff _ _).2 ?_, (cmpi_sle_iff _ _).2 ?_⟩
  · rw [show (0#32 : BitVec 32).toInt = 0 by decide]; exact r0
  · rw [show (49999#32 : BitVec 32).toInt = 49999 by decide]; exact r1

/-- The dimension numbers of the kernel program's gather (operand `[50000, 128]`) and of the reference's (operand `[50000, 1, 128]`). -/
abbrev dK := Cert.KernelIdeal.gather_S50000x128_S1600000x1_S1600000x128_1_0_n_n_0_1_1128
abbrev dR := Cert.ReferenceIdeal.gather_S50000x1x128_S1600000x1_S1600000x1x128_12_0_n_n_0_1_11128

/-- The kernel program's gather read at `(e, k)`: row `min (idx (e, 0)) 49999` (the start index read signed and clamped), column `k`. -/
theorem gatherK_apply {α : Type} (x : Cert.KernelIdeal.S50000x128.Idx → α) (idx : IVec Cert.KernelIdeal.S1600000x1 32) (e : Fin 1600000) (k : Fin 128) :
    Host.gather Cert.KernelIdeal.gather_S50000x128_S1600000x1_S1600000x128_1_0_n_n_0_1_1128 x idx (ix2 e k)
      = x (ix2 ⟨min (idx (ix2 e 0)).toInt.toNat 49999, by omega⟩ k) := by
  unfold Host.gather
  congr 1
  funext a
  refine Fin.ext ?_
  match a with
  | ⟨0, _⟩ =>
    show dK.start (ix2 e k) idx 0 + dK.batchCoord (ix2 e k) 0 + dK.offCoord (ix2 e k) 0 = min (idx (ix2 e 0)).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dK.startIndexMap from List.mem_singleton.mpr rfl)]
    have hsi : dK.siIdx (ix2 e k) ⟨List.idxOf (0 : Fin 2) dK.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show dK.start (ix2 e k) idx 1 + dK.batchCoord (ix2 e k) 1 + dK.offCoord (ix2 e k) 1 = k.val
    rw [GatherDims.batchCoord_eq_zero _ _ _ List.not_mem_nil]
    unfold GatherDims.start GatherDims.offCoord
    rw [dif_neg (by decide), dif_pos (by decide)]
    simp only [Nat.zero_add]
    rfl

/-- The reference's gather read at `(e, 0, k)`: the same row `min (idx (e, 0)) 49999`, the unit coordinate, column `k`. -/
theorem gatherR_apply {α : Type} (x : Cert.ReferenceIdeal.S50000x1x128.Idx → α) (idx : IVec Cert.ReferenceIdeal.S1600000x1 32) (e : Fin 1600000) (k : Fin 128) :
    Host.gather dR x idx (ix3 e 0 k) = x (ix3 ⟨min (idx (ix2 e 0)).toInt.toNat 49999, by omega⟩ 0 k) := by
  unfold Host.gather
  congr 1
  funext a
  refine Fin.ext ?_
  match a with
  | ⟨0, _⟩ =>
    show dR.start (ix3 e 0 k) idx 0 + dR.batchCoord (ix3 e 0 k) 0 + dR.offCoord (ix3 e 0 k) 0 = min (idx (ix2 e 0)).toInt.toNat 49999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ dR.startIndexMap from List.mem_singleton.mpr rfl)]
    have hsi : dR.siIdx (ix3 e 0 k) ⟨List.idxOf (0 : Fin 3) dR.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show dR.start (ix3 e 0 k) idx 1 + dR.batchCoord (ix3 e 0 k) 1 + dR.offCoord (ix3 e 0 k) 1 = 0
    rw [GatherDims.batchCoord_eq_zero _ _ _ List.not_mem_nil]
    unfold GatherDims.start GatherDims.offCoord
    rw [dif_neg (by decide), dif_pos (by decide)]
    simp only [Nat.zero_add]
    rfl
  | ⟨2, _⟩ =>
    show dR.start (ix3 e 0 k) idx 2 + dR.batchCoord (ix3 e 0 k) 2 + dR.offCoord (ix3 e 0 k) 2 = k.val
    rw [GatherDims.batchCoord_eq_zero _ _ _ List.not_mem_nil]
    unfold GatherDims.start GatherDims.offCoord
    rw [dif_neg (by decide), dif_pos (by decide)]
    simp only [Nat.zero_add]
    rfl

end Take

open Take

/-- Where every source word names a row, the take never fills: edge by edge it reads the same row of the `[50000, 128]` array
    as the reference's clamping gather reads of the `[50000, 1, 128]` array holding the same numbers. -/
theorem take_corr (x2 : FVec Ideal Cert.KernelIdeal.S50000x128 .f32) (x3 : FVec Ideal Cert.ReferenceIdeal.S50000x1x128 .f32) (src : IVec Cert.KernelIdeal.S1600000 32)
    (hx : Corr x2 x3) (hs : SrcInRange src) :
    Corr (K.take x2 src) (Host.gather Cert.ReferenceIdeal.gather_S50000x1x128_S1600000x1_S1600000x1x128_12_0_n_n_0_1_11128 x3 (R.idxCol src)) := by
  intro e k
  unfold K.take
  rw [select_apply, bcast0_apply, inRange_apply src hs e, select_one, gatherK_apply, gatherR_apply, ← idxCol_eq]
  exact hx _ k

end Cert.Hand

end
-- ==== Proof.Scatter.lean ====
import proofs.«406325_j52621939310631_1_alg».proof.Proof.Spec

noncomputable section

open Idealize.ShloMosaic Idealize.ShloMosaic.TcCoe Idealize.ShloMosaic.ValueIdx Idealize.SL.Sem

namespace Cert.Hand

namespace ScatterCorr

/-- An update lands on operand index `i` exactly when on every axis the window's start plus the window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := (h a).1
      simp only []
      omega
    · intro H
      funext a
      apply Fin.ext
      have := H a
      simp only []
      omega
  · rename_i h
    constructor
    · intro H; cases H
    · intro H
      exfalso
      apply h
      intro a
      have := H a
      have := (i a).isLt
      omega

abbrev D2 := Cert.KernelIdeal.scatter_S50000x128_S1600000x1_S1600000x128_1_0_0_1
abbrev D3 := Cert.ReferenceIdeal.scatter_S50000x1x128_S1600000x1_S1600000x1x128_12_0_0_1

theorem start2_0 (e : Fin 1600000) (k : Fin 128) (I : IVec Cert.KernelIdeal.S1600000x1 32) :
    D2.start (ix2 e k) I 0 = (I (ix2 e 0)).toInt := by
  unfold ScatterDims.start
  rw [dif_pos (show (0 : Fin 2) ∈ D2.scatterDimsToOperandDims from List.mem_singleton.mpr rfl)]
  congr 2
  funext b
  match b with
  | ⟨0, _⟩ => rfl
  | ⟨1, _⟩ => rfl

theorem start2_1 (e : Fin 1600000) (k : Fin 128) (I : IVec Cert.KernelIdeal.S1600000x1 32) :
    D2.start (ix2 e k) I 1 = 0 := by
  unfold ScatterDims.start
  rw [dif_neg (show ¬ (1 : Fin 2) ∈ D2.scatterDimsToOperandDims by show ¬ (1 : Fin 2) ∈ [0]; decide)]

theorem window2_0 (e : Fin 1600000) (k : Fin 128) : D2.window (ix2 e k) 0 = 0 := by
  unfold ScatterDims.window
  rw [dif_neg (show ¬ (0 : Fin 2) ∈ D2.sKept by decide)]

theorem window2_1 (e : Fin 1600000) (k : Fin 128) : D2.window (ix2 e k) 1 = k.val := by
  unfold ScatterDims.window
  rw [dif_pos (show (1 : Fin 2) ∈ D2.sKept by decide)]
  rfl

theorem start3_0 (e : Fin 1600000) (t : Fin 1) (k : Fin 128) (I : IVec Cert.ReferenceIdeal.S1600000x1 32) :
    D3.start (ix3 e t k) I 0 = (I (ix2 e 0)).toInt := by
  unfold ScatterDims.start
  rw [dif_pos (show (0 : Fin 3) ∈ D3.scatterDimsToOperandDims from List.mem_singleton.mpr rfl)]
  congr 2
  funext b
  match b with
  | ⟨0, _⟩ => rfl
  | ⟨1, _⟩ => rfl

theorem start3_1 (e : Fin 1600000) (t : Fin 1) (k : Fin 128) (I : IVec Cert.ReferenceIdeal.S1600000x1 32) :
    D3.start (ix3 e t k) I 1 = 0 := by
  unfold ScatterDims.start
  rw [dif_neg (show ¬ (1 : Fin 3) ∈ D3.scatterDimsToOperandDims by show ¬ (1 : Fin 3) ∈ [0]; decide)]

theorem start3_2 (e : Fin 1600000) (t : Fin 1) (k : Fin 128) (I : IVec Cert.ReferenceIdeal.S1600000x1 32) :
    D3.start (ix3 e t k) I 2 = 0 := by
  unfold ScatterDims.start
  rw [dif_neg (show ¬ (2 : Fin 3) ∈ D3.scatterDimsToOperandDims by show ¬ (2 : Fin 3) ∈ [0]; decide)]

theorem window3_0 (e : Fin 1600000) (t : Fin 1) (k : Fin 128) : D3.window (ix3 e t k) 0 = 0 := by
  unfold ScatterDims.window
  rw [dif_neg (show ¬ (0 : Fin 3) ∈ D3.sKept by decide)]

theorem window3_1 (e : Fin 1600000) (t : Fin 1) (k : Fin 128) : D3.window (ix3 e t k) 1 = t.val := by
  unfold ScatterDims.window
  rw [dif_pos (show (1 : Fin 3) ∈ D3.sKept by decide)]
  rfl

theorem window3_2 (e : Fin 1600000) (t : Fin 1) (k : Fin 128) : D3.window (ix3 e t k) 2 = k.val := by
  unfold ScatterDims.window
  rw [dif_pos (show (2 : Fin 3) ∈ D3.sKept by decide)]
  rfl

/-- In the rank-2 scatter, update `(e, k')` lands on `(n, k)` exactly when edge `e`'s destination word is `n` and
    `k' = k`. -/
theorem res2_iff (e : Fin 1600000) (k' : Fin 128) (I : IVec Cert.KernelIdeal.S1600000x1 32) (n : Fin 50000) (k : Fin 128) :
    D2.resultIdx? (ix2 e k') I = some (ix2 n k) ↔ (I (ix2 e 0)).toInt = (n.val : Int) ∧ k' = k := by
  rw [resultIdx?_eq_some_iff, Fin.forall_fin_two, start2_0, start2_1, window2_0, window2_1]
  constructor
  · rintro ⟨h0, h1⟩
    refine ⟨?_, Fin.ext ?_⟩
    · simpa using h0
    · have : ((k'.val : Int)) = (k.val : Int) := by simpa using h1
      exact_mod_cast this
  · rintro ⟨h0, rfl⟩
    exact ⟨by simpa using h0, by simp⟩

/-- In the rank-3 scatter, update `(e, t, k')` lands on `(n, 0, k)` exactly when edge `e`'s destination word is `n`
    and `k' = k`. -/
theorem res3_iff (e : Fin 1600000) (t : Fin 1) (k' : Fin 128) (I : IVec Cert.ReferenceIdeal.S1600000x1 32) (n : Fin 50000) (k : Fin 128) :
    D3.resultIdx? (ix3 e t k') I = some (ix3 n 0 k) ↔ (I (ix2 e 0)).toInt = (n.val : Int) ∧ k' = k := by
  rw [resultIdx?_eq_some_iff, Fin.forall_fin_succ, Fin.forall_fin_two]
  show (D3.start (ix3 e t k') I 0 + (D3.window (ix3 e t k') 0 : Int) = _ ∧
    D3.start (ix3 e t k') I 1 + (D3.window (ix3 e t k') 1 : Int) = _ ∧
    D3.start (ix3 e t k') I 2 + (D3.window (ix3 e t k') 2 : Int) = _) ↔ _
  rw [start3_0, start3_1, start3_2, window3_0, window3_1, window3_2]
  obtain rfl : t = 0 := Subsingleton.elim _ _
  constructor
  · rintro ⟨h0, -, h2⟩
    refine ⟨?_, Fin.ext ?_⟩
    · simpa using h0
    · have : ((k'.val : Int)) = (k.val : Int) := by simpa using h2
      exact_mod_cast this
  · rintro ⟨h0, rfl⟩
    exact ⟨by simpa using h0, by simp, by simp⟩

/-- The scatter-add over the extended reals read at an operand index: the operand's element plus the sum of the updates
    landing there. -/
theorem scatterAdd_apply {s si su : Shape} {φ : FTy} (d : ScatterDims s si su) {w : Nat} (x : FVec Ideal s φ) (idx : IVec si w)
    (upd : FVec Ideal su φ) (i : s.Idx) :
    Host.scatterAdd d x idx upd i = x i + ∑ j ∈ Finset.univ.filter (fun j => d.resultIdx? j idx = some i), upd j := rfl

/-- The updates landing on `(n, k)` in the rank-2 scatter and those landing on `(n, 0, k)` in the rank-3 scatter correspond
    along `(e, k') ↦ (e, 0, k')`, so the two sums of updates agree. -/
theorem sum_corr (u2 : FVec Ideal Cert.KernelIdeal.S1600000x128 .f32) (u3 : FVec Ideal Cert.ReferenceIdeal.S1600000x1x128 .f32)
    (hu : Corr u2 u3) (I2 : IVec Cert.KernelIdeal.S1600000x1 32) (I3 : IVec Cert.ReferenceIdeal.S1600000x1 32)
    (hI : ∀ e : Fin 1600000, I2 (ix2 e 0) = I3 (ix2 e 0)) (n : Fin 50000) (k : Fin 128) :
    ∑ j ∈ Finset.univ.filter (fun j => D2.resultIdx? j I2 = some (ix2 n k)), u2 j =
      ∑ j ∈ Finset.univ.filter (fun j => D3.resultIdx? j I3 = some (ix3 n 0 k)), u3 j := by
  refine Finset.sum_nbij'
    (fun j2 => (ix3 (j2 0) 0 (j2 1) : Cert.ReferenceIdeal.S1600000x1x128.Idx))
    (fun j3 => (ix2 (j3 0) (j3 2) : Cert.KernelIdeal.S1600000x128.Idx)) ?_ ?_ ?_ ?_ ?_
  · intro j2 hj2
    obtain ⟨e, k', rfl⟩ : ∃ (e : Fin 1600000) (k' : Fin 128), j2 = ix2 e k' := ⟨_, _, eq_ix2 j2⟩
    rw [Finset.mem_filter] at hj2 ⊢
    refine ⟨Finset.mem_univ _, ?_⟩
    have h2 := (res2_iff e k' I2 n k).mp hj2.2
    rw [hI e] at h2
    exact (res3_iff e 0 k' I3 n k).mpr h2
  · intro j3 hj3
    obtain ⟨e, t, k', rfl⟩ : ∃ (e : Fin 1600000) (t : Fin 1) (k' : Fin 128), j3 = ix3 e t k' := ⟨_, _, _, eq_ix3 j3⟩
    rw [Finset.mem_filter] at hj3 ⊢
    refine ⟨Finset.mem_univ _, ?_⟩
    have h3 := (res3_iff e t k' I3 n k).mp hj3.2
    rw [← hI e] at h3
    exact (res2_iff e k' I2 n k).mpr h3
  · intro j2 _
    exact (eq_ix2 j2).symm
  · intro j3 _
    obtain ⟨e, t, k', rfl⟩ : ∃ (e : Fin 1600000) (t : Fin 1) (k' : Fin 128), j3 = ix3 e t k' := ⟨_, _, _, eq_ix3 j3⟩
    obtain rfl : t = 0 := Subsingleton.elim _ _
    rfl
  · intro j2 _
    obtain ⟨e, k', rfl⟩ : ∃ (e : Fin 1600000) (k' : Fin 128), j2 = ix2 e k' := ⟨_, _, eq_ix2 j2⟩
    exact hu e k'

/-- The two scatter-adds at corresponding indices, over operands that agree there and index columns that hold the same
    words. -/
theorem scatterAdd_corr (u2 : FVec Ideal Cert.KernelIdeal.S1600000x128 .f32) (u3 : FVec Ideal Cert.ReferenceIdeal.S1600000x1x128 .f32)
    (hu : Corr u2 u3) (I2 : IVec Cert.KernelIdeal.S1600000x1 32) (I3 : IVec Cert.ReferenceIdeal.S1600000x1 32)
    (hI : ∀ e : Fin 1600000, I2 (ix2 e 0) = I3 (ix2 e 0))
    (z2 : FVec Ideal Cert.KernelIdeal.S50000x128 .f32) (z3 : FVec Ideal Cert.ReferenceIdeal.S50000x1x128 .f32)
    (n : Fin 50000) (k : Fin 128) (hz : z2 (ix2 n k) = z3 (ix3 n 0 k)) :
    Host.scatterAdd D2 z2 I2 u2 (ix2 n k) = Host.scatterAdd D3 z3 I3 u3 (ix3 n 0 k) := by
  rw [scatterAdd_apply, scatterAdd_apply, hz, sum_corr u2 u3 hu I2 I3 hI n k]

end ScatterCorr

/-- Summing edge rows into their destination nodes commutes with dropping the unit axis: the `[50000, 128]` scatter-add of
    `[1600000, 128]` updates and the `[50000, 1, 128]` scatter-add of `[1600000, 1, 128]` updates holding the same numbers, over the
    same destination words and from zero, hold the same numbers. -/
theorem scatter_corr (u2 : FVec Ideal Cert.KernelIdeal.S1600000x128 .f32) (u3 : FVec Ideal Cert.ReferenceIdeal.S1600000x1x128 .f32) (dst : IVec Cert.KernelIdeal.S1600000 32)
    (hu : Corr u2 u3) :
    Corr
      (Host.scatterAdd Cert.KernelIdeal.scatter_S50000x128_S1600000x1_S1600000x128_1_0_0_1
        (broadcastInDim Cert.KernelIdeal.S50000x128 ![] Cert.KernelIdeal.Facts₀.bcast_S_S50000x128 (constant (F := Ideal) Cert.KernelIdeal.S_ .f32 0x00000000#32))
        (broadcastInDim Cert.KernelIdeal.S1600000x1 ![0] Cert.KernelIdeal.Facts₀.bcast_S1600000_S1600000x1_0 dst) u2)
      (Host.scatterAdd Cert.ReferenceIdeal.scatter_S50000x1x128_S1600000x1_S1600000x1x128_12_0_0_1
        (broadcastInDim Cert.ReferenceIdeal.S50000x1x128 ![] Cert.ReferenceIdeal.Facts₀.bcast_S_S50000x1x128 (constant (F := Ideal) Cert.ReferenceIdeal.S_ .f32 0x00000000#32))
        (broadcastInDim Cert.ReferenceIdeal.S1600000x1 ![0] Cert.ReferenceIdeal.Facts₀.bcast_S1600000_S1600000x1_0 dst) u3) := by
  intro n k
  refine ScatterCorr.scatterAdd_corr u2 u3 hu _ _ ?_ _ _ n k ?_
  · intro e
    rfl
  · rfl

end Cert.Hand

end
-- ==== Proof.Mean.lean ====
import proofs.«406325_j52621939310631_1_alg».proof.Proof.Take
import proofs.«406325_j52621939310631_1_alg».proof.Proof.Scatter
import Idealize.ShloMosaic.Lib.IdealHost
import Idealize.ShloMosaic.Lib.Pipeline.Value

noncomputable section

open Idealize.ShloMosaic Idealize.ShloMosaic.TcCoe Idealize.ShloMosaic.ValueIdx Idealize.SL.Sem

namespace Cert.Hand

/-- The two programs spell the clamped in-degree by the same term. -/
theorem degMax_eq (dst : IVec Cert.KernelIdeal.S1600000 32) :
    K.degMax (F := Ideal) dst = R.degMax (F := Ideal) dst := rfl

/-- The clamped in-degree of a node is at least one. -/
theorem one_le_degMax (dst : IVec Cert.KernelIdeal.S1600000 32) (n : Fin 50000) :
    (1 : EReal) ≤ K.degMax (F := Ideal) dst (ix1 n) := by
  unfold K.degMax
  rw [maximumf_apply, broadcastInDim_scalar_apply, constant_apply, Ideal.ofBits_one_f32]
  exact le_max_right _ _

/-- So it is not zero. -/
theorem degMax_ne_zero (dst : IVec Cert.KernelIdeal.S1600000 32) (n : Fin 50000) :
    K.degMax (F := Ideal) dst (ix1 n) ≠ 0 :=
  (lt_of_lt_of_le zero_lt_one (one_le_degMax dst n)).ne'

/-- The reciprocal column broadcast along the rows, read at `(n, k)`: one over the clamped degree of node `n`. -/
theorem invDeg_bcast_apply (dst : IVec Cert.KernelIdeal.S1600000 32) (n : Fin 50000) (k : Fin 128) :
    broadcastInDim Cert.KernelIdeal.S50000x128 ![0, 1] Cert.KernelIdeal.Facts₀.bcast_S50000x1_S50000x128_0_1
        (K.invDeg (F := Ideal) dst) (ix2 n k)
      = Ideal.div 1 (K.degMax (F := Ideal) dst (ix1 n)) := by
  unfold K.invDeg
  rw [broadcastInDim_apply _ _ _ (ix2 n k) (ix2 n (0 : Fin 1))
        (fun a => match a with | ⟨0, _⟩ => rfl | ⟨1, _⟩ => rfl),
      broadcastInDim_apply _ _ _ (ix2 n (0 : Fin 1)) (ix1 n) (fun a => match a with | ⟨0, _⟩ => rfl),
      hostDivf_apply, broadcastInDim_scalar_apply, constant_apply, Ideal.ofBits_one_f32]

/-- The clamped degree broadcast over the unit axis and the features, read at `(n, 0, k)`: the clamped degree of node `n`. -/
theorem degMax_bcast_apply (dst : IVec Cert.KernelIdeal.S1600000 32) (n : Fin 50000) (k : Fin 128) :
    broadcastInDim Cert.ReferenceIdeal.S50000x1x128 ![0, 1, 2] Cert.ReferenceIdeal.Facts₀.bcast_S50000x1x1_S50000x1x128_0_1_2
        (broadcastInDim Cert.ReferenceIdeal.S50000x1x1 ![0] Cert.ReferenceIdeal.Facts₀.bcast_S50000_S50000x1x1_0 (R.degMax (F := Ideal) dst))
        (ix3 n (0 : Fin 1) k)
      = R.degMax (F := Ideal) dst (ix1 n) := by
  rw [broadcastInDim_apply _ _ _ (ix3 n (0 : Fin 1) k) (ix3 n (0 : Fin 1) (0 : Fin 1))
        (fun a => match a with | ⟨0, _⟩ => rfl | ⟨1, _⟩ => rfl | ⟨2, _⟩ => rfl),
      broadcastInDim_apply _ _ _ (ix3 n (0 : Fin 1) (0 : Fin 1)) (ix1 n) (fun a => match a with | ⟨0, _⟩ => rfl)]

/-- The two programs' neighbour means hold the same numbers: the same edge rows (`take_corr`) summed into the same nodes
    (`scatter_corr`), the kernel's product with the reciprocal of the clamped degree being the reference's quotient by it
    (the clamped degree is at least one, so not zero). -/
theorem hneigh_corr (x2 : FVec Ideal Cert.KernelIdeal.S50000x128 .f32) (x3 : FVec Ideal Cert.ReferenceIdeal.S50000x1x128 .f32) (src dst : IVec Cert.KernelIdeal.S1600000 32)
    (hx : Corr x2 x3) (hs : SrcInRange src) :
    Corr (K.hneigh (F := Ideal) x2 src dst) (R.hneigh (F := Ideal) x3 src dst) := by
  intro n k
  have hA := scatter_corr _ _ dst (take_corr x2 x3 src hx hs) n k
  unfold K.hneigh R.hneigh
  rw [mulf_apply, hostDivf_apply, invDeg_bcast_apply, degMax_bcast_apply, ← degMax_eq,
    Ideal.mul_one_div (degMax_ne_zero dst n), hA]

end Cert.Hand

end
-- ==== Proof.Layer.lean ====
import proofs.«406325_j52621939310631_1_alg».proof.Proof.Spec
import proofs.«406325_j52621939310631_1_alg».proof.Proof.Gen.ReferenceIdeal.Read
import Idealize.ShloMosaic.Lib.Pipeline.Value
import Idealize.ShloMosaic.PureOps.Ideal.Laws

noncomputable section

open Idealize.ShloMosaic Idealize.ShloMosaic.TcCoe Idealize.ShloMosaic.ValueIdx Idealize.SL.Sem

namespace Cert.Hand

/-- Dropping the unit axis keeps the numbers. -/
theorem reshape_corr (x3 : FVec Ideal Cert.ReferenceIdeal.S50000x1x128 .f32) :
    Corr (shapeCast Cert.KernelIdeal.S50000x128 x3 Cert.KernelIdeal.Facts₀.shapeCasts_S50000x1x128_S50000x128) x3 := by
  intro n k
  -- both indices sit at row-major position `n * 128 + k`
  refine shapeCast_apply x3 _ (ix2 n k) (ix3 n 0 k) ?_
  rw [Shape.rowMajor_val_three, Shape.rowMajor_val_two]
  show (n.val * 1 + 0) * 128 + k.val = n.val * 128 + k.val
  omega

/-! ## The pieces of the reference's layer at node `n`, unit coordinate, feature `o` -/

open Cert.ReferenceIdeal Cert.ReferenceIdeal.Facts₀ in
/-- The contraction of the last axis of `x` with the second axis of `w`: `Σ_k x[n, 0, k] · w[o, k]`. -/
theorem layer_dot_at (x : FVec Ideal Cert.ReferenceIdeal.S50000x1x128 .f32) (w : FVec Ideal Cert.ReferenceIdeal.S128x128 .f32)
    (n : Fin 50000) (o : Fin 128) :
    Host.dotGeneral (F := Ideal) dot_S50000x1x128_S128x128_S50000x1x128_2_1_01_0_n_n none x w (ix3 n 0 o)
      = ∑ k : Fin 128, x (ix3 n 0 k) * w (ix2 o k) := by
  have h := Cert.ReferenceIdeal.Read.val_main_v19_apply x w (ix3 n 0 o)
  unfold Cert.ReferenceIdeal.Read.val_main_v19 at h
  rw [h]
  refine Finset.sum_congr rfl fun k _ => ?_
  have e1 : Cert.ReferenceIdeal.Read.lidx_main_v19 (ix3 n 0 o) k = ix3 n 0 k := by
    funext a
    match a with
    | ⟨0, _⟩ => rfl
    | ⟨1, _⟩ => rfl
    | ⟨2, _⟩ => rfl
  have e2 : Cert.ReferenceIdeal.Read.ridx_main_v19 (ix3 n 0 o) k = ix2 o k := by
    funext a
    match a with
    | ⟨0, _⟩ => rfl
    | ⟨1, _⟩ => rfl
  rw [e1, e2]

open Cert.ReferenceIdeal Cert.ReferenceIdeal.Facts₀ in
/-- The bias, broadcast along the node axis and the unit axis, reads `b[o]`. -/
theorem layer_bias_at (b : FVec Ideal Cert.ReferenceIdeal.S128 .f32) (n : Fin 50000) (o : Fin 128) :
    broadcastInDim S50000x1x128 ![0, 1, 2] bcast_S1x1x128_S50000x1x128_0_1_2 (broadcastInDim S1x1x128 ![2] bcast_S128_S1x1x128_2 b) (ix3 n 0 o)
      = b (ix1 o) := by
  refine (Cert.ReferenceIdeal.Read.val_main_v21_apply (F := Ideal) b (ix3 n 0 o)).trans ?_
  refine (Cert.ReferenceIdeal.Read.val_main_v20_apply (F := Ideal) b _).trans ?_
  refine congrArg b ?_
  funext a
  match a with
  | ⟨0, _⟩ => rfl

open Cert.ReferenceIdeal Cert.ReferenceIdeal.Facts₀ in
/-- The zero array reads `0`. -/
theorem layer_zero_at (n : Fin 50000) (o : Fin 128) :
    broadcastInDim S50000x1x128 ![] bcast_S_S50000x1x128 (constant (F := Ideal) S_ .f32 0x00000000#32) (ix3 n 0 o) = 0 := by
  rw [broadcastInDim_apply _ bcast_S_S50000x1x128 _ (ix3 n 0 o) (fun a => a.elim0) (fun a => a.elim0)]
  exact Ideal.ofBits_zero_f32

/-- A transposed square matrix read at `[k, o]` is the matrix at `[o, k]`. -/
theorem layer_transpose_at (w : FVec Ideal Cert.ReferenceIdeal.S128x128 .f32) (k o : Fin 128) :
    transpose Cert.KernelIdeal.S128x128 [1, 0] w Cert.KernelIdeal.Facts₀.transposes_S128x128_S128x128_1_0 (ix2 k o) = w (ix2 o k) :=
  transpose_apply _ w _ (ix2 k o) (ix2 o k) (fun b => match b with
    | ⟨0, _⟩ => rfl
    | ⟨1, _⟩ => rfl)

/-- One layer of the reference, at node `n`, unit coordinate, feature `o`, is the layer formula of the `[50000, 128]` arrays
    holding the same numbers, with the weights transposed (the reference contracts the weights' second axis). -/
theorem layer_corr (x2 h2 : FVec Ideal Cert.KernelIdeal.S50000x128 .f32) (x3 h3 : FVec Ideal Cert.ReferenceIdeal.S50000x1x128 .f32)
    (ws wn : FVec Ideal Cert.ReferenceIdeal.S128x128 .f32) (b : FVec Ideal Cert.ReferenceIdeal.S128 .f32) (hx : Corr x2 x3) (hh : Corr h2 h3) (n : Fin 50000) (o : Fin 128) :
    sageAt (at2 x2) (at2 h2) (at2 (transpose Cert.KernelIdeal.S128x128 [1, 0] ws Cert.KernelIdeal.Facts₀.transposes_S128x128_S128x128_1_0))
        (at2 (transpose Cert.KernelIdeal.S128x128 [1, 0] wn Cert.KernelIdeal.Facts₀.transposes_S128x128_S128x128_1_0)) (at1 b) n o
      = R.layerOf x3 h3 ws b wn (ix3 n 0 o) := by
  unfold R.layerOf sageAt
  rw [maximumf_apply, addf_apply, addf_apply, layer_dot_at, layer_dot_at, layer_bias_at, layer_zero_at]
  -- the same three summands, the bias second on the right and last on the left
  rw [add_right_comm]
  congr 2
  · congr 1
    refine Finset.sum_congr rfl fun k _ => ?_
    show x2 (ix2 n k) * _ = _
    rw [hx n k]
    exact congrArg (x3 (ix3 n 0 k) * ·) (layer_transpose_at ws k o)
  · refine Finset.sum_congr rfl fun k _ => ?_
    show h2 (ix2 n k) * _ = _
    rw [hh n k]
    exact congrArg (h3 (ix3 n 0 k) * ·) (layer_transpose_at wn k o)

end Cert.Hand

end
-- ==== Proof.Cls.lean ====
import proofs.«406325_j52621939310631_1_alg».proof.Proof.Layer
import Idealize.ShloMosaic.Lib.Pipeline.Value
import Idealize.ShloMosaic.Lib.IdealHost
import Idealize.ShloMosaic.PureOps.Ideal.Laws

noncomputable section

open Idealize.ShloMosaic Idealize.ShloMosaic.TcCoe Idealize.ShloMosaic.ValueIdx Idealize.SL.Sem

namespace Cert.Hand

section Ref
open Cert.ReferenceIdeal Cert.ReferenceIdeal.Facts₀

/-- The sum over the unit axis, started from the zero word, is its one term. -/
theorem cls_unit_sum_at (y : FVec Ideal S50000x1x128 .f32) (n : Fin 50000) (k : Fin 128) :
    Host.reduceAdd (F := Ideal) y (constant (F := Ideal) S_ .f32 0x00000000#32) reducesTo_S50000x1x128_S50000x128_d1 h_S_ (ix2 n k)
      = y (ix3 n 0 k) := by
  simp only [Host.reduceAdd, Ideal.hostReduceAdd_def]
  rw [Ideal.hostReduceAdd_single reducesTo_S50000x1x128_S50000x128_d1 (by decide)]
  show Ideal.ofBits .f32 0x00000000#32 + ∑ t : Fin 1, y _ = y (ix3 n 0 k)
  rw [Ideal.ofBits_zero_f32, zero_add, Fin.sum_univ_one]
  exact congrArg y (funext fun a => Fin.ext (by match a with | ⟨0, _⟩ => rfl | ⟨1, _⟩ => rfl | ⟨2, _⟩ => rfl))

/-- Dividing by the constant one changes nothing: the mean over the unit axis is the one term. -/
theorem cls_unit_mean_at (y : FVec Ideal S50000x1x128 .f32) (n : Fin 50000) (k : Fin 128) :
    Host.divf (F := Ideal)
        (Host.reduceAdd (F := Ideal) y (constant (F := Ideal) S_ .f32 0x00000000#32) reducesTo_S50000x1x128_S50000x128_d1 h_S_)
        (broadcastInDim S50000x128 ![] bcast_S_S50000x128 (constant (F := Ideal) S_ .f32 0x3F800000#32)) (ix2 n k)
      = y (ix3 n 0 k) := by
  show Ideal.div (Host.reduceAdd (F := Ideal) y (constant (F := Ideal) S_ .f32 0x00000000#32) reducesTo_S50000x1x128_S50000x128_d1 h_S_ (ix2 n k))
      (broadcastInDim S50000x128 ![] bcast_S_S50000x128 (constant (F := Ideal) S_ .f32 0x3F800000#32) (ix2 n k)) = y (ix3 n 0 k)
  rw [cls_unit_sum_at]
  have h1 : broadcastInDim S50000x128 ![] bcast_S_S50000x128 (constant (F := Ideal) S_ .f32 0x3F800000#32) (ix2 n k) = (1 : EReal) := by
    rw [broadcastInDim_apply _ bcast_S_S50000x128 _ (ix2 n k) ix0 (fun a => a.elim0)]
    exact Ideal.ofBits_one_f32
  rw [h1]
  unfold Ideal.div
  rw [if_neg one_ne_zero, inv_one, mul_one]

end Ref

section Ref2
open Cert.ReferenceIdeal Cert.ReferenceIdeal.Facts₀

/-- The contraction of the second axis of `p` with the first axis of `w`: `Σ_k p[n, k] · w[k, j]`. -/
theorem cls_dot_at (p : FVec Ideal S50000x128 .f32) (w : FVec Ideal S128x10 .f32) (n : Fin 50000) (j : Fin 10) :
    Host.dotGeneral (F := Ideal) dot_S50000x128_S128x10_S50000x10_1_0_0_1_n_n none p w (ix2 n j)
      = ∑ k : Fin 128, p (ix2 n k) * w (ix2 k j) := by
  simp only [Host.dotGeneral]
  rw [Ideal.dotGeneral_apply, ← Equiv.sum_comp (ValueIdx.contrEquiv1 dot_S50000x128_S128x10_S50000x10_1_0_0_1_n_n 128 rfl rfl).symm]
  refine Finset.sum_congr rfl fun k _ => ?_
  have hk := ValueIdx.contrEquiv1_symm_val dot_S50000x128_S128x10_S50000x10_1_0_0_1_n_n 128 rfl rfl k
  have el : dot_S50000x128_S128x10_S50000x10_1_0_0_1_n_n.lhsIdx (ix2 n j) ((ValueIdx.contrEquiv1 dot_S50000x128_S128x10_S50000x10_1_0_0_1_n_n 128 rfl rfl).symm k) = ix2 n k :=
    funext fun a => Fin.ext (by
      match a with
      | ⟨0, _⟩ => exact Cert.ReferenceIdeal.Read.lhs_main_v56_0 _ _
      | ⟨1, _⟩ => exact (Cert.ReferenceIdeal.Read.lhs_main_v56_1 _ _).trans hk)
  have er : dot_S50000x128_S128x10_S50000x10_1_0_0_1_n_n.rhsIdx (ix2 n j) ((ValueIdx.contrEquiv1 dot_S50000x128_S128x10_S50000x10_1_0_0_1_n_n 128 rfl rfl).symm k) = ix2 k j :=
    funext fun a => Fin.ext (by
      match a with
      | ⟨0, _⟩ => exact (Cert.ReferenceIdeal.Read.rhs_main_v56_0 _ _).trans hk
      | ⟨1, _⟩ => exact Cert.ReferenceIdeal.Read.rhs_main_v56_1 _ _)
  rw [el, er]

/-- The bias row, copied to every node, at node `n` and class `j` is `bc[j]`. -/
theorem cls_bias_at (bc : FVec Ideal S10 .f32) (n : Fin 50000) (j : Fin 10) :
    broadcastInDim S50000x10 ![0, 1] bcast_S1x10_S50000x10_0_1 (broadcastInDim S1x10 ![1] bcast_S10_S1x10_1 bc) (ix2 n j) = bc (ix1 j) := by
  rw [broadcastInDim_apply _ bcast_S1x10_S50000x10_0_1 _ (ix2 n j) (ix2 0 j) (fun a => match a with
    | ⟨0, _⟩ => by show 0 = if (1 : Nat) = 1 then 0 else n.val; rw [if_pos rfl]
    | ⟨1, _⟩ => by show j.val = if (10 : Nat) = 1 then 0 else j.val; rw [if_neg (by decide)])]
  exact broadcastInDim_apply _ bcast_S10_S1x10_1 bc (ix2 0 j) (ix1 j) (fun a => match a with
    | ⟨0, _⟩ => by show j.val = if (10 : Nat) = 1 then 0 else j.val; rw [if_neg (by decide)])

/-- The reference's last two steps over any `[50000, 1, 128]` array `y`: the mean over the unit axis keeps the numbers, so the
    result at node `n`, class `j` is `Σ_k y[n, 0, k] · wcᵀ[k, j] + bc[j]`. -/
theorem cls_outOf_at (y : FVec Ideal S50000x1x128 .f32) (wc : FVec Ideal S10x128 .f32) (bc : FVec Ideal S10 .f32) (n : Fin 50000) (j : Fin 10) :
    R.outOf y wc bc (ix2 n j)
      = ∑ k : Fin 128, y (ix3 n 0 k) * transpose S128x10 [1, 0] wc transposes_S10x128_S128x10_1_0 (ix2 k j) + bc (ix1 j) := by
  unfold R.outOf
  refine (congrArg₂ (· + ·) (cls_dot_at _ _ n j) (cls_bias_at bc n j)).trans ?_
  refine congrArg (· + _) (Finset.sum_congr rfl fun k _ => ?_)
  rw [cls_unit_mean_at]

end Ref2

/-- The reference's last steps (second layer, mean over the unit axis, classifier) at node `n`, class `j`, are the fused formula of
    the `[50000, 128]` arrays holding the same numbers. -/
theorem cls_corr (x2 h2 : FVec Ideal Cert.KernelIdeal.S50000x128 .f32) (x3 h3 : FVec Ideal Cert.ReferenceIdeal.S50000x1x128 .f32)
    (ws wn : FVec Ideal Cert.ReferenceIdeal.S128x128 .f32) (b : FVec Ideal Cert.ReferenceIdeal.S128 .f32) (wc : FVec Ideal Cert.ReferenceIdeal.S10x128 .f32) (bc : FVec Ideal Cert.ReferenceIdeal.S10 .f32)
    (hx : Corr x2 x3) (hh : Corr h2 h3) (n : Fin 50000) (j : Fin 10) :
    clsAt (at2 x2) (at2 h2) (at2 (transpose Cert.KernelIdeal.S128x128 [1, 0] ws Cert.KernelIdeal.Facts₀.transposes_S128x128_S128x128_1_0))
        (at2 (transpose Cert.KernelIdeal.S128x128 [1, 0] wn Cert.KernelIdeal.Facts₀.transposes_S128x128_S128x128_1_0)) (at1 b)
        (at2 (transpose Cert.KernelIdeal.S128x10 [1, 0] wc Cert.KernelIdeal.Facts₀.transposes_S10x128_S128x10_1_0)) (at1 bc) n j
      = R.outOf (R.layerOf x3 h3 ws b wn) wc bc (ix2 n j) := by
  -- each second-layer value under the sum is the reference's layer at the unit coordinate
  have hL : ∀ k : Fin 128,
      sageAt (at2 x2) (at2 h2) (at2 (transpose Cert.KernelIdeal.S128x128 [1, 0] ws Cert.KernelIdeal.Facts₀.transposes_S128x128_S128x128_1_0))
        (at2 (transpose Cert.KernelIdeal.S128x128 [1, 0] wn Cert.KernelIdeal.Facts₀.transposes_S128x128_S128x128_1_0)) (at1 b) n k
        = R.layerOf x3 h3 ws b wn (ix3 n 0 k) := fun k => layer_corr x2 h2 x3 h3 ws wn b hx hh n k
  rw [cls_outOf_at]
  unfold clsAt
  refine congrArg₂ (· + ·) (Finset.sum_congr rfl fun k _ => ?_) rfl
  rw [hL k]

end Cert.Hand

end
-- ==== Proof.Range.lean ====
import proofs.«406325_j52621939310631_1_alg».proof.Pre_finite_inputs
import proofs.«406325_j52621939310631_1_alg».proof.Proof.Gen.Pre_finite_inputs
import proofs.«406325_j52621939310631_1_alg».proof.Proof.Spec
import Idealize.ShloMosaic.Lib.ReduceAll
import Idealize.ShloMosaic.Lib.StableHlo.Predicate

noncomputable section

open Idealize.ShloMosaic Idealize.ShloMosaic.TcCoe Idealize.ShloMosaic.ValueIdx Idealize.SL.Sem

namespace Cert.Hand

open Cert.Pre_finite_inputs

/-- The precondition's last conjunct read back: where the printed predicate is all ones, every source word lies in
    `[-50000, 50000)`. -/
theorem src_in_range (a0 : FVec Ideal S50000x1x128 .f32) (a1 a2 : IVec S1600000 32) (a3 : FVec Ideal S128x128 .f32) (a4 : FVec Ideal S128 .f32)
    (a5 a6 : FVec Ideal S128x128 .f32) (a7 : FVec Ideal S128 .f32) (a8 : FVec Ideal S128x128 .f32) (a9 : FVec Ideal S10x128 .f32) (a10 : FVec Ideal S10 .f32)
    (h : Cert.Pre_finite_inputs.fn (F := Ideal) a0 a1 a2 a3 a4 a5 a6 a7 a8 a9 a10 = (fun _ => 1#1)) : SrcInRange a1 := by
  intro e
  have h0 := congrFun h ValueIdx.ix0
  simp only [Cert.Pre_finite_inputs.fn, fn_part1, fn_part2] at h0
  -- the value is a conjunction whose last conjunct is the check of all source words
  have h1 := (IntOp.andi_eq_one.1 h0).2
  haveI : Subsingleton S_.Idx := ⟨fun a b => funext fun d => d.elim0⟩
  -- a conjunction over all words that holds, holds at word e
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  -- a broadcast constant reads the constant everywhere
  change (4294917296#32 : BitVec 32).toInt ≤ (a1 (ix1 e)).toInt at hge'
  change (a1 (ix1 e)).toInt < (50000#32 : BitVec 32).toInt at hlt'
  rw [show (4294917296#32 : BitVec 32).toInt = -50000 by decide] at hge'
  rw [show (50000#32 : BitVec 32).toInt = 50000 by decide] at hlt'
  exact ⟨hge', hlt'⟩

end Cert.Hand

end
-- ==== Proof.Bridge.lean ====
import proofs.«406325_j52621939310631_1_alg».proof.Defs
import proofs.«406325_j52621939310631_1_alg».proof.Proof.KernelRun
import proofs.«406325_j52621939310631_1_alg».proof.Proof.KHost
import proofs.«406325_j52621939310631_1_alg».proof.Proof.Region0
import proofs.«406325_j52621939310631_1_alg».proof.Proof.Region1
import proofs.«406325_j52621939310631_1_alg».proof.Proof.Mean
import proofs.«406325_j52621939310631_1_alg».proof.Proof.Cls
import proofs.«406325_j52621939310631_1_alg».proof.Proof.Range
import proofs.«406325_j52621939310631_1_alg».proof.Proof.Gen.ReferenceIdeal.Run

noncomputable section

open Idealize.ShloMosaic Idealize.ShloMosaic.TcCoe Idealize.ShloMosaic.ValueIdx Idealize.SL.Sem

/-!
  The two programs compute the same classifier scores.

  The kernel program's result buffer ends at what its second region leaves (`run_result`, `W7_out`), entry by entry the fused
  second layer and classifier (`region1`) of the arrays that region finds (`V6_*`): the first region's output `hid` and its
  neighbour mean. `hid` is entry by entry the first layer (`region0`) of the reshaped features and their neighbour mean
  (`V3_*`). The reference's run ends at `R.out` of the arguments. Layer by layer the kernel program's `[50000, 128]` arrays
  hold the same numbers as the reference's `[50000, 1, 128]` arrays: the reshape (`reshape_corr`), the neighbour means
  (`hneigh_corr`, where the precondition's index range is used: `src_in_range`), a layer (`layer_corr`), and the last steps
  (`cls_corr`).
-/

namespace Cert.Hand

open Cert.KernelIdeal Cert.KernelIdeal.Gen

variable (m : (ℓ : Loc nD τ sig) → Buf (Elt Ideal) ℓ) (ρ : Dev nD → PrngReg)

/-- The first region's output holds the numbers of the reference's first layer. -/
theorem hid_corr (c : Dev nD) (hs : SrcInRange (m ((c.tc : Thread nD τ).loc main_arg1))) :
    Corr (hid m ρ c) (R.layer (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  intro n o
  have h := region0 (V3 m ρ) c n o
  rw [V3_0, V3_1, V3_2, V3_3, V3_4] at h
  exact h.trans (layer_corr _ _ _ _ _ _ _ (reshape_corr _) (hneigh_corr _ _ _ _ (reshape_corr _) hs) n o)

/-- The kernel program's result buffer, entry by entry, is the reference's result function of the same arguments. -/
theorem result_apply (c : Dev nD) (hs : SrcInRange (m ((c.tc : Thread nD τ).loc main_arg1))) (n : Fin 50000) (j : Fin 10) :
    (W7 m ρ c (Proc.devRef .tc main_v28) : S50000x10.Idx → EReal) (ix2 n j)
      = R.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 n j) := by
  rw [W7_out]
  have h := region1 (V6 m ρ) c n j
  rw [V6_0, V6_1, V6_2, V6_3, V6_4, V6_5, V6_6] at h
  exact h.trans (cls_corr _ _ _ _ _ _ _ _ _ (hid_corr m ρ c hs) (hneigh_corr _ _ _ _ (hid_corr m ρ c hs) hs) n j)

/-- The reference run's result term is `R.out` of the arguments (the definitions unfolded). -/
theorem ref_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v59 (F := Ideal) m' c
      = R.out (F := Ideal) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)) := by
  unfold Cert.ReferenceIdeal.Value.res_main_v59 R.out R.outOf R.layer R.layerOf R.hneigh R.idxCol R.degMax
  rfl

/-- Under the precondition, from memories that agree on the arguments, both programs run to the end with the same result,
    and leave their arguments as launched. -/
theorem algebraic : Cert.algebraic_KernelIdeal_ReferenceIdeal := by
  intro m ρ m' ρ' hpre hagree
  have hs : ∀ c : Dev nD, SrcInRange (m ((c.tc : Thread nD τ).loc main_arg1)) := fun c => src_in_range _ _ _ _ _ _ _ _ _ _ _ (hpre c)
  refine ⟨fun c => W7 m ρ c (Proc.devRef .tc main_v28), run_result m ρ, ?_⟩
  refine (θ_run Cert.ReferenceIdeal.defs _ _).mono (fun _ h c => ⟨(h c).1.trans ?_, (h c).2⟩)
    (Cert.ReferenceIdeal.Value.run (F := Ideal) m' ρ')
  rw [ref_result m' c, (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  funext i
  obtain ⟨n, j, rfl⟩ : ∃ (n : Fin 50000) (j : Fin 10), i = ix2 n j := ⟨i 0, i 1, eq_ix2 i⟩
  exact (result_apply m ρ c (hs c) n j).symm

end Cert.Hand

end
-- ==== Proof.lean ====
/-
  Two-layer GraphSAGE with mean aggregation and a linear classifier: a Pallas program (the dense per-node work of each layer in
  a pipelined region of ten blocks of 5000 nodes, the second layer fused with the classifier; the gather of source rows and the
  sum into destination nodes on the host) against its plain jnp reference, equal over the extended reals.

  For node features `x`, edges `(src e, dst e)` and the in-degree `deg n`:
    hneigh x [n, k] = (Σ_{e : dst e = n} x [src e, k]) / max (deg n) 1
    layer x [n, o]  = max (Σ_k x [n, k] · Wself [o, k] + b [o] + Σ_k hneigh x [n, k] · Wneigh [o, k]) 0
    out [n, j]      = Σ_k (layer₁ (layer₀ feat)) [n, k] · Wcls [j, k] + bcls [j].
  The two programs differ in: the unit axis of the features (reshaped away by the kernel program, summed over and divided by
  one at the end by the reference); how a source index outside the rows is treated (the kernel program's take fills, the
  reference's gather clamps: equal exactly where every source word names a row, which the precondition states); the mean as a
  product with the reciprocal of the clamped degree or as a quotient by it (equal since the clamped degree is not zero); the
  order of the three summands of a layer (addition on the extended reals is commutative and associative); and the matrix
  products as matmuls against transposed weights or as contractions of the weights' second axis (the same sums).

  The frames of the two kernel programs are the generated ones; the reference's frame is its generated run with the result
  dropped; the ideal pass rewrote nothing, so `preserves` asks nothing; `algebraic` is `Cert.Hand.algebraic` (Proof/Bridge.lean).
-/
import proofs.«406325_j52621939310631_1_alg».proof.Defs
import proofs.«406325_j52621939310631_1_alg».proof.Proof.Gen.Kernel
import proofs.«406325_j52621939310631_1_alg».proof.Proof.Gen.Kernel.Skeleton
import proofs.«406325_j52621939310631_1_alg».proof.Proof.Gen.Kernel.Launch
import proofs.«406325_j52621939310631_1_alg».proof.Proof.Gen.Kernel.Points
import proofs.«406325_j52621939310631_1_alg».proof.Proof.Gen.Kernel.Frame
import proofs.«406325_j52621939310631_1_alg».proof.Proof.Gen.KernelIdeal
import proofs.«406325_j52621939310631_1_alg».proof.Proof.Gen.KernelIdeal.Skeleton
import proofs.«406325_j52621939310631_1_alg».proof.Proof.Gen.KernelIdeal.Launch
import proofs.«406325_j52621939310631_1_alg».proof.Proof.Gen.KernelIdeal.Points
import proofs.«406325_j52621939310631_1_alg».proof.Proof.Gen.KernelIdeal.Frame
import proofs.«406325_j52621939310631_1_alg».proof.Proof.Gen.ReferenceIdeal
import proofs.«406325_j52621939310631_1_alg».proof.Proof.Gen.Pre_finite_inputs
import proofs.«406325_j52621939310631_1_alg».proof.Proof.Gen.ReferenceIdeal.Run
import proofs.«406325_j52621939310631_1_alg».proof.Proof.Gen.ReferenceIdeal.Read
import proofs.«406325_j52621939310631_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Hand.algebraic⟩

end Cert.Proof

end
